-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S2x1600000 32 := broadcastInDim S2x1600000 ![] bcast_S_S2x1600000 main_c_22
  let main_v60 : IVec S2x1600000 1 := cmpi .sge main_arg1 main_v59
  let main_c_23 : IVec S_ 32 := constantI S_ 32 100000#32
  let main_v61 : IVec S2x1600000 32 := broadcastInDim S2x1600000 ![] bcast_S_S2x1600000 main_c_23
  let main_v62 : IVec S2x1600000 1 := cmpi .slt main_arg1 main_v61
  let main_v63 : IVec S2x1600000 1 := andi main_v60 main_v62
  let main_c_24 : IVec S_ 1 := constantI S_ 1 1#1
  let main_v64 : IVec S_ 1 := (fun x v => Host.reduce IntOp.andi x v reducesTo_S2x1600000_S_d0_1 h_S_) main_v63 main_c_24
  let main_v65 : IVec S_ 1 := andi main_v58 main_v64
  main_v65

def fn_part2 {F : FTy → Type} [FloatOps F] (main_arg1 : IVec S2x1600000 32) (main_arg8 : FVec F S64 .f32) (main_arg9 : FVec F S64x64 .f32) (main_arg10 : FVec F S64 .f32) (main_arg11 : FVec F S64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_v48 main_v49 main_v50

def fn_part1 {F : FTy → Type} [FloatOps F] (main_arg1 : IVec S2x1600000 32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x64 .f32) (main_arg1 : IVec S2x1600000 32) (main_arg2 : FVec F S1600000x32 .f32) (main_arg3 : FVec F S160x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_arg11 : FVec F S64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x64 .f32 := Host.absf main_arg3
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S32x64 : Shape := ⟨2, ![32, 64]⟩
abbrev S6400x64 : Shape := ⟨2, ![6400, 64]⟩
abbrev S6400x32 : Shape := ⟨2, ![6400, 32]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 74
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x64, .f32⟩
  | .hbm, ⟨36, _⟩ => ⟨S1600000x64, .i1⟩
  | .hbm, ⟨37, _⟩ => ⟨S_, .f32⟩
  | .hbm, ⟨38, _⟩ => ⟨S1600000x64, .f32⟩
  | .hbm, ⟨39, _⟩ => ⟨S1600000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1, .i32⟩
  | .hbm, ⟨49, _⟩ => ⟨S_, .i32⟩
  | .hbm, ⟨50, _⟩ => ⟨S1600000x1, .i32⟩
  | .hbm, ⟨51, _⟩ => ⟨S1600000x1, .i1⟩
  | .hbm, ⟨52, _⟩ => ⟨S1x1, .i32⟩
  | .hbm, ⟨53, _⟩ => ⟨S1600000x1, .i32⟩
  | .hbm, ⟨54, _⟩ => ⟨S1600000x1, .i1⟩
  | .hbm, ⟨55, _⟩ => ⟨S1600000x1, .i1⟩
  | .hbm, ⟨56, _⟩ => ⟨S_, .i1⟩
  | .hbm, ⟨57, _⟩ => ⟨S1600000, .i1⟩
  | .hbm, ⟨58, _⟩ => ⟨S1600000x64, .f32⟩
  | .hbm, ⟨59, _⟩ => ⟨S1600000x64, .i1⟩
  | .hbm, ⟨60, _⟩ => ⟨S_, .f32⟩
  | .hbm, ⟨61, _⟩ => ⟨S1600000x64, .f32⟩
  | .hbm, ⟨62, _⟩ => ⟨S1600000x64, .f32⟩
  | .hbm, ⟨63, _⟩ => ⟨S64x64, .f32⟩
  | .hbm, ⟨64, _⟩ => ⟨S64x64, .f32⟩
  | .hbm, ⟨65, _⟩ => ⟨S32x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S64x64, .f32⟩
  | .hbm, ⟨72, _⟩ => ⟨S64x64, .f32⟩
  | .hbm, ⟨73, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x32, .f32⟩
  | .local _ .vmem, ⟨5, _⟩ => ⟨S6400x32, .f32⟩
  | .local _ .vmem, ⟨6, _⟩ => ⟨S64x64, .f32⟩
  | .local _ .vmem, ⟨7, _⟩ => ⟨S64x64, .f32⟩
  | .local _ .vmem, ⟨8, _⟩ => ⟨S32x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S6400x64, .f32⟩
  | .local _ .vmem, ⟨13, _⟩ => ⟨S6400x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S64, .f32⟩
  | .local _ .vmem, ⟨21, _⟩ => ⟨S64x64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S160x64_S64x64_0_0 : S160x64.Slices ![0, 0] S64x64
  slices_S160x64_S64x64_64_0 : S160x64.Slices ![64, 0] S64x64
  slices_S160x64_S32x64_128_0 : S160x64.Slices ![128, 0] S32x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S6400x32_S6400x32_0_0 : ∀ a, (![0, 0] : Fin 2 → Nat) a + S6400x32.size a ≤ S6400x32.size a
  h_S6400x32 : 0 < S6400x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S6400x64 : S1x64.Broadcasts S6400x64
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  dot_S6400x32_S32x64_S6400x64_1_0_0_1_n_n_wf : DotDims.WF S6400x32 S32x64 S6400x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S1600000x32.size a
  hwx0_2 : ∀ i : grid0.Coords, EltTy.bits .f32 = 32 ∨ (Rect.block (s := S1600000x32) S6400x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x64.size a ≤ S1600000x64.size a
  hwx0_9 : ∀ i : grid0.Coords, EltTy.bits .f32 = 32 ∨ (Rect.block (s := S1600000x64) S6400x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x32_S32x64_S6400x64_1_0_0_1_n_n : DotDims S6400x32 S32x64 S6400x64 where
  lhsContracting := [1]
  rhsContracting := [0]
  lhsNonContracting := [0]
  rhsNonContracting := [1]
  lhsBatch := []
  rhsBatch := []
  wf := dot_S6400x32_S32x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S6400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1600000x160, .f32⟩
  | .hbm, ⟨36, _⟩ => ⟨S1600000x64, .f32⟩
  | .hbm, ⟨37, _⟩ => ⟨S1x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S1600000x64, .f32⟩
  | .hbm, ⟨42, _⟩ => ⟨S1600000x64, .f32⟩
  | .hbm, ⟨43, _⟩ => ⟨S1600000x64, .f32⟩
  | .hbm, ⟨44, _⟩ => ⟨S1x64, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S100000x128, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S_, .i32⟩
  | .hbm, ⟨80, _⟩ => ⟨S_, .f32⟩
  | .hbm, ⟨81, _⟩ => ⟨S100000, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S100000x1, .f32⟩
  | .hbm, ⟨97, _⟩ => ⟨S_, .f32⟩
  | .hbm, ⟨98, _⟩ => ⟨S_, .i1⟩
  | .hbm, ⟨99, _⟩ => ⟨S_, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x1, .f32⟩
  | .hbm, ⟨107, _⟩ => ⟨S100000x1, .f32⟩
  | .hbm, ⟨108, _⟩ => ⟨S100000x1, .f32⟩
  | .hbm, ⟨109, _⟩ => ⟨S100000x64, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v41 : Ref sig .tc := ⟨.hbm, 71, rfl⟩
abbrev main_v42 : Ref sig .tc := ⟨.hbm, 72, rfl⟩
abbrev main_cst_3 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_c_5 : Ref sig .tc := ⟨.hbm, 79, rfl⟩
abbrev main_call3_cst : Ref sig .tc := ⟨.hbm, 80, rfl⟩
abbrev main_call3_v0 : Ref sig .tc := ⟨.hbm, 81, rfl⟩
abbrev main_call3_v1 : Ref sig .tc := ⟨.hbm, 82, rfl⟩
abbrev main_call3_cst_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_cst_1 : Ref sig .tc := ⟨.hbm, 90, rfl⟩
abbrev main_call3_v8 : Ref sig .tc := ⟨.hbm, 91, rfl⟩
abbrev main_call3_cst_2 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_v12 : Ref sig .tc := ⟨.hbm, 96, rfl⟩
abbrev main_call3_cst_3 : Ref sig .tc := ⟨.hbm, 97, rfl⟩
abbrev main_call3_v13 : Ref sig .tc := ⟨.hbm, 98, rfl⟩
abbrev main_call3_cst_4 : Ref sig .tc := ⟨.hbm, 99, rfl⟩
abbrev main_call3_call0_v0 : Ref sig .tc := ⟨.hbm, 100, rfl⟩
abbrev main_call3_call0_v1 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_6 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x160_S160x64_S1600000x64_1_0_0_1_n_n_wf : DotDims.WF S1600000x160 S160x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x64_S1600000x64_1_0_0_1_n_n : DotDims S1600000x160 S160x64 S1600000x64 where
  lhsContracting := [1]
  rhsContracting := [0]
  lhsNonContracting := [0]
  rhsNonContracting := [1]
  lhsBatch := []
  rhsBatch := []
  wf := dot_S1600000x160_S160x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelTerm.lean ====
/-
  The kernel program's host operations composed as pure functions of its argument arrays: the two rows of edge
  endpoints, a row as gather indices, the range test and the guarded gather of `jnp.take`, the row blocks of the two
  first-layer weight matrices, and the scatter-add of the messages into a zero array.
-/
import proofs.«410363_j75831942578740_1_alg».proof.Proof.Gen.KernelIdeal

noncomputable section

namespace Cert.KernelIdeal.Term

open Cert.KernelIdeal Cert.KernelIdeal.Gen Idealize.ShloMosaic

variable {F : FTy → Type} [FloatOps F]

def srcRow (EI : IVec S2x1600000 32) : IVec S1600000 32 :=
  shapeCast S1600000 (extractStridedSlice S1x1600000 ![0, 0] EI slices_S2x1600000_S1x1600000_0_0) shapeCasts_S1x1600000_S1600000
def dstRow (EI : IVec S2x1600000 32) : IVec S1600000 32 :=
  shapeCast S1600000 (extractStridedSlice S1x1600000 ![1, 0] EI slices_S2x1600000_S1x1600000_1_0) shapeCasts_S1x1600000_S1600000

/-- A row of endpoints as gather indices: a negative entry shifted by the node count, then a trailing unit axis. -/
def idxOf (row : IVec S1600000 32) : IVec S1600000x1 32 :=
  broadcastInDim S1600000x1 ![0] bcast_S1600000_S1600000x1_0
    (select (cmpi .slt row (broadcastInDim S1600000 ![] bcast_S_S1600000 (constantI S_ 32 0#32)))
      (addi row (broadcastInDim S1600000 ![] bcast_S_S1600000 (constantI S_ 32 100000#32))) row)

/-- Per edge: is the (shifted) index inside `[0, 99999]`? -/
def inRange (i5 : IVec S1600000x1 32) : IVec S1600000 1 :=
  Host.reduce IntOp.andi
    (andi (cmpi .sge i5 (broadcastInDim S1600000x1 ![] bcast_S_S1600000x1 (constantI S_ 32 0#32)))
          (cmpi .sle i5 (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- `jnp.take(x, row, axis=0)` at its default mode: the gathered rows where the index is in range, the NaN pattern elsewhere. -/
def takeOf (X : FVec F S100000x64 .f32) (row : IVec S1600000 32) : FVec F S1600000x64 .f32 :=
  select (broadcastInDim S1600000x64 ![0] bcast_S1600000_S1600000x64_0 (inRange (idxOf row)))
    (Host.gather gather_S100000x64_S1600000x1_S1600000x64_1_0_n_n_0_1_164 X (idxOf row))
    (broadcastInDim S1600000x64 ![] bcast_S_S1600000x64 (constant S_ .f32 0x7FC00000#32))

def w1s (W1 : FVec F S160x64 .f32) : FVec F S64x64 .f32 := extractStridedSlice S64x64 ![0, 0] W1 slices_S160x64_S64x64_0_0
def w1d (W1 : FVec F S160x64 .f32) : FVec F S64x64 .f32 := extractStridedSlice S64x64 ![64, 0] W1 slices_S160x64_S64x64_64_0
def w1e (W1 : FVec F S160x64 .f32) : FVec F S32x64 .f32 := extractStridedSlice S32x64 ![128, 0] W1 slices_S160x64_S32x64_128_0
def u1a (U1 : FVec F S128x64 .f32) : FVec F S64x64 .f32 := extractStridedSlice S64x64 ![0, 0] U1 slices_S128x64_S64x64_0_0
def u1b (U1 : FVec F S128x64 .f32) : FVec F S64x64 .f32 := extractStridedSlice S64x64 ![64, 0] U1 slices_S128x64_S64x64_64_0

/-- Each edge's message added into its destination node's row of a zero array. -/
def aggOf (EI : IVec S2x1600000 32) (msg : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dstRow EI)) msg

end Cert.KernelIdeal.Term

end
-- ==== Proof.Spec.lean ====
/-
  What the two programs compute, as functions of whole arrays read index by index over the extended reals.

  An edge message: for edge `e` the three input rows (source node row, destination node row, edge attributes) go
  through one affine layer whose weight matrix is given in three row blocks, a rectifier, and a second affine layer.
  A node update: the node row and its aggregated messages go through an affine layer in two row blocks, a rectifier
  and a second affine layer; the row plus `o · logistic(o)` of that output is then normalised over its 64 entries
  (mean, biased variance, reciprocal square root of variance + ε) and scaled and shifted per column.
-/
import Idealize.ShloMosaic.PureOps.Ideal
import Idealize.ShloMosaic.Lib.ValueIdx

noncomputable section

open Idealize.ShloMosaic Idealize.ShloMosaic.ValueIdx
open scoped BigOperators

namespace Cert.Spec

abbrev SE64 : Shape := ⟨2, ![1600000, 64]⟩
abbrev SE32 : Shape := ⟨2, ![1600000, 32]⟩
abbrev SN64 : Shape := ⟨2, ![100000, 64]⟩
abbrev S64x64 : Shape := ⟨2, ![64, 64]⟩
abbrev S32x64 : Shape := ⟨2, ![32, 64]⟩
abbrev S64 : Shape := ⟨1, ![64]⟩

/-- The literal `64.0` both programs divide a row sum by, and the literal ε both add to the variance. -/
abbrev c64 : EReal := Ideal.ofBits .f32 0x42800000#32
abbrev cEps : EReal := Ideal.ofBits .f32 0x3727C5AC#32

/-- Rows `o, …, o + b − 1` of a matrix with 64 columns. -/
def rowsFrom {a : Nat} (b o : Nat) (h : o + b ≤ a) (W : (⟨2, ![a, 64]⟩ : Shape).Idx → EReal) :
    (⟨2, ![b, 64]⟩ : Shape).Idx → EReal :=
  fun j => W (ix2 ⟨o + (j 0).val, by have := idx2_lt0 j; omega⟩ (j 1))

/-- Hidden unit `k` of the message layer for edge `e`, before the rectifier:
    `xs[e,:]·Ws[:,k] + xd[e,:]·Wd[:,k] + ea[e,:]·We[:,k] + b1[k]`. -/
def msgHid (XS XD : SE64.Idx → EReal) (EA : SE32.Idx → EReal) (Ws Wd : S64x64.Idx → EReal) (We : S32x64.Idx → EReal)
    (b1 : S64.Idx → EReal) (e : Fin 1600000) (k : Fin 64) : EReal :=
  (((∑ i : Fin 64, XS (ix2 e i) * Ws (ix2 i k)) + ∑ i : Fin 64, XD (ix2 e i) * Wd (ix2 i k))
      + ∑ i : Fin 32, EA (ix2 e i) * We (ix2 i k)) + b1 (ix1 k)

/-- The message of edge `e`, column `c`: `max(hid[e,:], 0)·W2[:,c] + b2[c]`. -/
def msgAt (XS XD : SE64.Idx → EReal) (EA : SE32.Idx → EReal) (Ws Wd : S64x64.Idx → EReal) (We : S32x64.Idx → EReal)
    (b1 : S64.Idx → EReal) (W2 : S64x64.Idx → EReal) (b2 : S64.Idx → EReal) (e : Fin 1600000) (c : Fin 64) : EReal :=
  (∑ k : Fin 64, max (msgHid XS XD EA Ws Wd We b1 e k) 0 * W2 (ix2 k c)) + b2 (ix1 c)

/-- All messages, as one array. -/
def msgK (XS XD : SE64.Idx → EReal) (EA : SE32.Idx → EReal) (Ws Wd : S64x64.Idx → EReal) (We : S32x64.Idx → EReal)
    (b1 : S64.Idx → EReal) (W2 : S64x64.Idx → EReal) (b2 : S64.Idx → EReal) : SE64.Idx → EReal :=
  fun j => msgAt XS XD EA Ws Wd We b1 W2 b2 (j 0) (j 1)

/-- Hidden unit `i` of the update layer for node `n`, before the rectifier. -/
def updHid (X A : SN64.Idx → EReal) (Ua Ub : S64x64.Idx → EReal) (ub1 : S64.Idx → EReal) (n : Fin 100000) (i : Fin 64) : EReal :=
  ((∑ a : Fin 64, X (ix2 n a) * Ua (ix2 a i)) + ∑ a : Fin 64, A (ix2 n a) * Ub (ix2 a i)) + ub1 (ix1 i)

/-- The update layer's output for node `n`, column `k`. -/
def updOut (X A : SN64.Idx → EReal) (Ua Ub : S64x64.Idx → EReal) (ub1 : S64.Idx → EReal) (U2 : S64x64.Idx → EReal)
    (ub2 : S64.Idx → EReal) (n : Fin 100000) (k : Fin 64) : EReal :=
  (∑ i : Fin 64, max (updHid X A Ua Ub ub1 n i) 0 * U2 (ix2 i k)) + ub2 (ix1 k)

/-- The residual row: `x + o · logistic(o)`. -/
def updRes (X A : SN64.Idx → EReal) (Ua Ub : S64x64.Idx → EReal) (ub1 : S64.Idx → EReal) (U2 : S64x64.Idx → EReal)
    (ub2 : S64.Idx → EReal) (n : Fin 100000) (k : Fin 64) : EReal :=
  X (ix2 n k) + updOut X A Ua Ub ub1 U2 ub2 n k * Ideal.logistic (updOut X A Ua Ub ub1 U2 ub2 n k)

/-- Mean of a row of 64 entries: the sum divided by the literal 64. -/
def mean64 (f : Fin 64 → EReal) : EReal := Ideal.div (∑ k : Fin 64, f k) c64

/-- A row normalised: `(h[c] − μ) · rsqrt(var + ε) · g[c] + β[c]` with `μ` the row's mean and `var` the mean of the
    squared deviations. -/
def normRow (h : Fin 64 → EReal) (g bt : S64.Idx → EReal) (c : Fin 64) : EReal :=
  ((h c - mean64 h) * Ideal.rsqrt (mean64 (fun k => (h k - mean64 h) * (h k - mean64 h)) + cEps)) * g (ix1 c) + bt (ix1 c)

/-- The updated node array. -/
def updK (X A : SN64.Idx → EReal) (Ua Ub : S64x64.Idx → EReal) (ub1 : S64.Idx → EReal) (U2 : S64x64.Idx → EReal)
    (ub2 g bt : S64.Idx → EReal) : SN64.Idx → EReal :=
  fun j => normRow (fun k => updRes X A Ua Ub ub1 U2 ub2 (j 0) k) g bt (j 1)

end Cert.Spec

end
-- ==== Proof.MsgRegion.lean ====
/-
  Region 0 (the message kernel) read as a value: whatever the arrays hold when the region is entered, after its 250 grid
  points the output array holds every edge's message — block `t` is rows `6400·t … 6400·t + 6399`, computed from the same
  rows of the three edge inputs and from the whole weight blocks.
-/
import proofs.«410363_j75831942578740_1_alg».proof.Proof.Gen.KernelIdeal.Frame
import proofs.«410363_j75831942578740_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MsgRegion

open Cert.KernelIdeal Cert.KernelIdeal.Gen Idealize.ShloMosaic Idealize.ShloMosaic.TcCoe Idealize.ShloMosaic.ValueIdx
open scoped BigOperators

variable (V : (c : Dev nD) → (b : Ref sig .tc) → Buf (Elt Ideal) ((c : Thread nD τ).loc b))

/-! ## The two contractions' operand indices, axis by axis -/

theorem lhs_d64_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhs_d64_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhs_d64_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhs_d64_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

theorem lhs_d32_0 (i : S6400x64.Idx) (q : dot_S6400x32_S32x64_S6400x64_1_0_0_1_n_n.contr.Idx) :
    (dot_S6400x32_S32x64_S6400x64_1_0_0_1_n_n.lhsIdx i q 0).val = (i 0).val := by
  unfold DotDims.lhsIdx
  rw [dif_neg (show ¬(0 : Fin S6400x32.rank) ∈ dot_S6400x32_S32x64_S6400x64_1_0_0_1_n_n.lhsBatch by decide), dif_pos (show (0 : Fin S6400x32.rank) ∈ dot_S6400x32_S32x64_S6400x64_1_0_0_1_n_n.lhsNonContracting by decide)]
  rfl
theorem lhs_d32_1 (i : S6400x64.Idx) (q : dot_S6400x32_S32x64_S6400x64_1_0_0_1_n_n.contr.Idx) :
    (dot_S6400x32_S32x64_S6400x64_1_0_0_1_n_n.lhsIdx i q 1).val = (q ⟨0, by decide⟩).val :=
  dot_S6400x32_S32x64_S6400x64_1_0_0_1_n_n.lhsIdx_val_of_single rfl i q
theorem rhs_d32_0 (i : S6400x64.Idx) (q : dot_S6400x32_S32x64_S6400x64_1_0_0_1_n_n.contr.Idx) :
    (dot_S6400x32_S32x64_S6400x64_1_0_0_1_n_n.rhsIdx i q 0).val = (q ⟨0, by decide⟩).val :=
  dot_S6400x32_S32x64_S6400x64_1_0_0_1_n_n.rhsIdx_val_of_single rfl i q
theorem rhs_d32_1 (i : S6400x64.Idx) (q : dot_S6400x32_S32x64_S6400x64_1_0_0_1_n_n.contr.Idx) :
    (dot_S6400x32_S32x64_S6400x64_1_0_0_1_n_n.rhsIdx i q 1).val = (i 1).val := by
  unfold DotDims.rhsIdx
  rw [dif_neg (show ¬(1 : Fin S32x64.rank) ∈ dot_S6400x32_S32x64_S6400x64_1_0_0_1_n_n.rhsBatch by decide), dif_pos (show (1 : Fin S32x64.rank) ∈ dot_S6400x32_S32x64_S6400x64_1_0_0_1_n_n.rhsNonContracting by decide)]
  rfl

/-- A [6400,64] × [64,64] block product into the zero block, at row r and column q. -/
theorem mm64_apply {φ₁ φ₂ : FTy} (A : FVec Ideal S6400x64 φ₁) (B : FVec Ideal S64x64 φ₂) (r : Fin 6400) (q : Fin 64) :
    FloatOps.matmul dot_S6400x64_S64x64_S6400x64_1_0_0_1_n_n none A B (constant (F := Ideal) S6400x64 .f32 0x00000000#32) (ix2 r q)
      = ∑ k : Fin 64, A (ix2 r k) * B (ix2 k q) := by
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 r q) ((contrEquiv1 dot_S6400x64_S64x64_S6400x64_1_0_0_1_n_n 64 rfl rfl).symm k) = ix2 r k := funext fun a => Fin.ext (by
    match a with
    | ⟨0, _⟩ => exact lhs_d64_0 _ _
    | ⟨1, _⟩ => exact (lhs_d64_1 _ _).trans hk)
  have er : dot_S6400x64_S64x64_S6400x64_1_0_0_1_n_n.rhsIdx (ix2 r q) ((contrEquiv1 dot_S6400x64_S64x64_S6400x64_1_0_0_1_n_n 64 rfl rfl).symm k) = ix2 k q := funext fun a => Fin.ext (by
    match a with
    | ⟨0, _⟩ => exact (rhs_d64_0 _ _).trans hk
    | ⟨1, _⟩ => exact rhs_d64_1 _ _)
  rw [el, er]

/-- A [6400,32] × [32,64] block product into the zero block, at row r and column q. -/
theorem mm32_apply {φ₁ φ₂ : FTy} (A : FVec Ideal S6400x32 φ₁) (B : FVec Ideal S32x64 φ₂) (r : Fin 6400) (q : Fin 64) :
    FloatOps.matmul dot_S6400x32_S32x64_S6400x64_1_0_0_1_n_n none A B (constant (F := Ideal) S6400x64 .f32 0x00000000#32) (ix2 r q)
      = ∑ k : Fin 32, A (ix2 r k) * B (ix2 k q) := by
  rw [Ideal.matmul_constant_zero_apply, ← Equiv.sum_comp (contrEquiv1 dot_S6400x32_S32x64_S6400x64_1_0_0_1_n_n 32 rfl rfl).symm]
  refine Finset.sum_congr rfl fun k _ => ?_
  have hk := contrEquiv1_symm_val dot_S6400x32_S32x64_S6400x64_1_0_0_1_n_n 32 rfl rfl k
  have el : dot_S6400x32_S32x64_S6400x64_1_0_0_1_n_n.lhsIdx (ix2 r q) ((contrEquiv1 dot_S6400x32_S32x64_S6400x64_1_0_0_1_n_n 32 rfl rfl).symm k) = ix2 r k := funext fun a => Fin.ext (by
    match a with
    | ⟨0, _⟩ => exact lhs_d32_0 _ _
    | ⟨1, _⟩ => exact (lhs_d32_1 _ _).trans hk)
  have er : dot_S6400x32_S32x64_S6400x64_1_0_0_1_n_n.rhsIdx (ix2 r q) ((contrEquiv1 dot_S6400x32_S32x64_S6400x64_1_0_0_1_n_n 32 rfl rfl).symm k) = ix2 k q := funext fun a => Fin.ext (by
    match a with
    | ⟨0, _⟩ => exact (rhs_d32_0 _ _).trans hk
    | ⟨1, _⟩ => exact rhs_d32_1 _ _)
  rw [el, er]

/-- A [64] row cast to [1,64] and spread over the 6400 rows reads, at (r, q), the row's entry q. -/
theorem biasRow_apply (b : Vec Ideal S64 .f32) (r : Fin 6400) (q : Fin 64) :
    broadcastTo S6400x64 (shapeCast S1x64 b shapeCasts_S64_S1x64) broadcasts_S1x64_S6400x64 (ix2 r q) = b (ix1 q) := by
  rw [broadcastTo_1b_ab_apply, shapeCast_a_1a_apply]

/-- The body's value at row r, column q of its blocks. -/
theorem pay_apply (x0 x1 : Vec Ideal S6400x64 .f32) (x2 : Vec Ideal S6400x32 .f32) (x3 x4 : Vec Ideal S64x64 .f32)
    (x5 : Vec Ideal S32x64 .f32) (x6 : Vec Ideal S64 .f32) (x7 : Vec Ideal S64x64 .f32) (x8 : Vec Ideal S64 .f32)
    (r : Fin 6400) (q : Fin 64) :
    k0_pay1 (F := Ideal) x0 x1 x2 x3 x4 x5 x6 x7 x8 (ix2 r q)
      = (∑ k : Fin 64, max ((((∑ i : Fin 64, x0 (ix2 r i) * x3 (ix2 i k)) + ∑ i : Fin 64, x1 (ix2 r i) * x4 (ix2 i k))
            + ∑ i : Fin 32, x2 (ix2 r i) * x5 (ix2 i k)) + x6 (ix1 k)) 0 * x7 (ix2 k q)) + x8 (ix1 q) := by
  unfold k0_pay1
  simp only [shapeCast_self, matmul]
  rw [addf_apply, biasRow_apply]
  rw [mm64_apply]
  refine congrArg (· + x8 (ix1 q)) (Finset.sum_congr rfl fun k _ => ?_)
  rw [truncf_apply, truncf_apply, maximumf_apply, broadcast_apply, addf_apply, biasRow_apply, addf_apply, addf_apply,
    mm64_apply, mm64_apply, mm32_apply]
  simp only [truncf_apply]
  show max _ (Ideal.ofBits .f32 0x00000000#32) * _ = _
  rw [Ideal.ofBits_zero_f32]

/-! ## From the blocks to the array -/

theorem zeros2 : (![0, 0] : Fin 2 → Nat) = fun _ => 0 := funext fun a => by fin_cases a <;> rfl
theorem zeros1 : (![0] : Fin 1 → Nat) = fun _ => 0 := funext fun a => by fin_cases a; rfl

/-- Where each window's block sits at grid point t: the three edge inputs and the output at row block t, the
    weights and bias rows whole. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem points (t : Fin cfg0.N) : t.val < 250 := lt_of_lt_of_eq t.isLt N_0

/-- An index of the message array is in point t's block iff each coordinate is in the block's range on its axis. -/
theorem mem_outBlock (t : Fin cfg0.N) (i : S1600000x64.Idx) :
    i ∈ ((cfg0.win 9).blk t).view.set ↔ ∀ a : Fin 2, win0_9.index t a * S6400x64.size a ≤ (i a).val ∧ (i a).val < win0_9.index t a * S6400x64.size a + S6400x64.size a := by
  show i ∈ ((View.whole main_v9).slice (win0_9.rect t)).set ↔ _
  rw [View.set_slice_whole, Rect.mem_set_unit]
  exact Iff.rfl

/-- Row e of the message array is written by point e / 6400. -/
theorem rows_covered (i : S1600000x64.Idx) :
    ∃ t : Fin cfg0.N, (cfg0.win 9).flush t = true ∧ i ∈ ((cfg0.win 9).blk t).view.set := by
  have h0 : (i 0).val < 1600000 := idx2_lt0 i
  have h1 : (i 1).val < 64 := idx2_lt1 i
  have hN : cfg0.N = 250 := N_0
  refine ⟨⟨(i 0).val / 6400, by rw [hN]; omega⟩, flush0_9 _, ?_⟩
  rw [mem_outBlock]
  obtain ⟨-, -, -, -, -, -, -, -, -, -, -, -, -, -, -, -, e0, e1⟩ := block_index ⟨(i 0).val / 6400, by rw [hN]; omega⟩
  intro a
  match a with
  | ⟨0, _⟩ =>
    show win0_9.index _ (0 : Fin 2) * 6400 ≤ (i 0).val ∧ (i 0).val < win0_9.index _ (0 : Fin 2) * 6400 + 6400
    rw [e0]; show (i 0).val / 6400 * 6400 ≤ (i 0).val ∧ (i 0).val < (i 0).val / 6400 * 6400 + 6400; omega
  | ⟨1, _⟩ =>
    show win0_9.index _ (1 : Fin 2) * 64 ≤ (i 1).val ∧ (i 1).val < win0_9.index _ (1 : Fin 2) * 64 + 64
    rw [e1]; omega

/-! ### Each window's block at a point, read off its array -/

theorem srcRows_at (c : Dev nD) (t : Fin cfg0.N) (p : Fin 6400) (i : Fin 64) (e : Fin 1600000) (he : e.val = t.val * 6400 + p.val) :
    (iblk0 V c 0 t : Vec Ideal S6400x64 .f32) (ix2 p i) = (V c main_v4 : S1600000x64.Idx → EReal) (ix2 e i) := by
  obtain ⟨e0, e1, -⟩ := block_index t
  show (V c main_v4 : S1600000x64.Idx → EReal) (((cfg0.win 0).blk t).view.emb (ix2 p i)) = _
  refine congrArg _ (funext fun a => Fin.ext ?_)
  match a with
  | ⟨0, _⟩ => show win0_0.index t (0 : Fin 2) * 6400 + 1 * p.val = e.val; rw [e0, he]; omega
  | ⟨1, _⟩ => show win0_0.index t (1 : Fin 2) * 64 + 1 * i.val = i.val; rw [e1]; omega
theorem dstRows_at (c : Dev nD) (t : Fin cfg0.N) (p : Fin 6400) (i : Fin 64) (e : Fin 1600000) (he : e.val = t.val * 6400 + p.val) :
    (iblk0 V c 1 t : Vec Ideal S6400x64 .f32) (ix2 p i) = (V c main_v5 : S1600000x64.Idx → EReal) (ix2 e i) := by
  obtain ⟨-, -, e0, e1, -⟩ := block_index t
  show (V c main_v5 : S1600000x64.Idx → EReal) (((cfg0.win 1).blk t).view.emb (ix2 p i)) = _
  refine congrArg _ (funext fun a => Fin.ext ?_)
  match a with
  | ⟨0, _⟩ => show win0_1.index t (0 : Fin 2) * 6400 + 1 * p.val = e.val; rw [e0, he]; omega
  | ⟨1, _⟩ => show win0_1.index t (1 : Fin 2) * 64 + 1 * i.val = i.val; rw [e1]; omega
theorem attrRows_at (c : Dev nD) (t : Fin cfg0.N) (p : Fin 6400) (i : Fin 32) (e : Fin 1600000) (he : e.val = t.val * 6400 + p.val) :
    (iblk0 V c 2 t : Vec Ideal S6400x32 .f32) (ix2 p i) = (V c main_arg2 : S1600000x32.Idx → EReal) (ix2 e i) := by
  obtain ⟨-, -, -, -, e0, e1, -⟩ := block_index t
  show (V c main_arg2 : S1600000x32.Idx → EReal) (((cfg0.win 2).blk t).view.emb (ix2 p i)) = _
  refine congrArg _ (funext fun a => Fin.ext ?_)
  match a with
  | ⟨0, _⟩ => show win0_2.index t (0 : Fin 2) * 6400 + 1 * p.val = e.val; rw [e0, he]; omega
  | ⟨1, _⟩ => show win0_2.index t (1 : Fin 2) * 32 + 1 * i.val = i.val; rw [e1]; omega
theorem wSrc_at (c : Dev nD) (t : Fin cfg0.N) (i : Fin 64) (k : Fin 64) :
    (iblk0 V c 3 t : Vec Ideal S64x64 .f32) (ix2 i k) = (V c main_v6 : S64x64.Idx → EReal) (ix2 i k) := by
  obtain ⟨-, -, -, -, -, -, e0, e1, -⟩ := block_index t
  show (V c main_v6 : S64x64.Idx → EReal) (((cfg0.win 3).blk t).view.emb (ix2 i k)) = _
  refine congrArg _ (funext fun a => Fin.ext ?_)
  match a with
  | ⟨0, _⟩ => show win0_3.index t (0 : Fin 2) * 64 + 1 * i.val = i.val; rw [e0]; omega
  | ⟨1, _⟩ => show win0_3.index t (1 : Fin 2) * 64 + 1 * k.val = k.val; rw [e1]; omega
theorem wDst_at (c : Dev nD) (t : Fin cfg0.N) (i : Fin 64) (k : Fin 64) :
    (iblk0 V c 4 t : Vec Ideal S64x64 .f32) (ix2 i k) = (V c main_v7 : S64x64.Idx → EReal) (ix2 i k) := by
  obtain ⟨-, -, -, -, -, -, -, -, e0, e1, -⟩ := block_index t
  show (V c main_v7 : S64x64.Idx → EReal) (((cfg0.win 4).blk t).view.emb (ix2 i k)) = _
  refine congrArg _ (funext fun a => Fin.ext ?_)
  match a with
  | ⟨0, _⟩ => show win0_4.index t (0 : Fin 2) * 64 + 1 * i.val = i.val; rw [e0]; omega
  | ⟨1, _⟩ => show win0_4.index t (1 : Fin 2) * 64 + 1 * k.val = k.val; rw [e1]; omega
theorem wAttr_at (c : Dev nD) (t : Fin cfg0.N) (i : Fin 32) (k : Fin 64) :
    (iblk0 V c 5 t : Vec Ideal S32x64 .f32) (ix2 i k) = (V c main_v8 : S32x64.Idx → EReal) (ix2 i k) := by
  obtain ⟨-, -, -, -, -, -, -, -, -, -, e0, e1, -⟩ := block_index t
  show (V c main_v8 : S32x64.Idx → EReal) (((cfg0.win 5).blk t).view.emb (ix2 i k)) = _
  refine congrArg _ (funext fun a => Fin.ext ?_)
  match a with
  | ⟨0, _⟩ => show win0_5.index t (0 : Fin 2) * 32 + 1 * i.val = i.val; rw [e0]; omega
  | ⟨1, _⟩ => show win0_5.index t (1 : Fin 2) * 64 + 1 * k.val = k.val; rw [e1]; omega
theorem bias1_at (c : Dev nD) (t : Fin cfg0.N) (k : Fin 64) :
    (iblk0 V c 6 t : Vec Ideal S64 .f32) (ix1 k) = (V c main_arg4 : S64.Idx → EReal) (ix1 k) := by
  obtain ⟨-, -, -, -, -, -, -, -, -, -, -, -, e0, -⟩ := block_index t
  show (V c main_arg4 : S64.Idx → EReal) (((cfg0.win 6).blk t).view.emb (ix1 k)) = _
  refine congrArg _ (funext fun a => Fin.ext ?_)
  match a with
  | ⟨0, _⟩ => show win0_6.index t (0 : Fin 1) * 64 + 1 * k.val = k.val; rw [e0]; omega
theorem w2_at (c : Dev nD) (t : Fin cfg0.N) (i : Fin 64) (k : Fin 64) :
    (iblk0 V c 7 t : Vec Ideal S64x64 .f32) (ix2 i k) = (V c main_arg5 : S64x64.Idx → EReal) (ix2 i k) := by
  obtain ⟨-, -, -, -, -, -, -, -, -, -, -, -, -, e0, e1, -⟩ := block_index t
  show (V c main_arg5 : S64x64.Idx → EReal) (((cfg0.win 7).blk t).view.emb (ix2 i k)) = _
  refine congrArg _ (funext fun a => Fin.ext ?_)
  match a with
  | ⟨0, _⟩ => show win0_7.index t (0 : Fin 2) * 64 + 1 * i.val = i.val; rw [e0]; omega
  | ⟨1, _⟩ => show win0_7.index t (1 : Fin 2) * 64 + 1 * k.val = k.val; rw [e1]; omega
theorem bias2_at (c : Dev nD) (t : Fin cfg0.N) (k : Fin 64) :
    (iblk0 V c 8 t : Vec Ideal S64 .f32) (ix1 k) = (V c main_arg6 : S64.Idx → EReal) (ix1 k) := by
  obtain ⟨-, -, -, -, -, -, -, -, -, -, -, -, -, -, -, e0, -⟩ := block_index t
  show (V c main_arg6 : S64.Idx → EReal) (((cfg0.win 8).blk t).view.emb (ix1 k)) = _
  refine congrArg _ (funext fun a => Fin.ext ?_)
  match a with
  | ⟨0, _⟩ => show win0_8.index t (0 : Fin 1) * 64 + 1 * k.val = k.val; rw [e0]; omega

/-- Point t's output block, entry (p, q), sits at row 6400·t + p, column q of the message array. -/
theorem outBlock_at (t : Fin cfg0.N) (p : Fin 6400) (q : Fin 64) (e : Fin 1600000) (he : e.val = t.val * 6400 + p.val) :
    ((cfg0.win 9).blk t).view.emb (ix2 p q) = (ix2 e q : S1600000x64.Idx) := by
  obtain ⟨-, -, -, -, -, -, -, -, -, -, -, -, -, -, -, -, e0, e1⟩ := block_index t
  refine funext fun a => Fin.ext ?_
  match a with
  | ⟨0, _⟩ => show win0_9.index t (0 : Fin 2) * 6400 + 1 * p.val = e.val; rw [e0, he]; omega
  | ⟨1, _⟩ => show win0_9.index t (1 : Fin 2) * 64 + 1 * q.val = q.val; rw [e1]; omega

/-- What point t writes back is block t of the message array of the arrays the region was entered with. -/
theorem flushed_msg (c : Dev nD) (t : Fin cfg0.N) :
    (dat0 (F := Ideal) V c).flushed 9 t = ((cfg0.win 9).blk t).view.read (Elt Ideal)
      (Cert.Spec.msgK (V c main_v4) (V c main_v5) (V c main_arg2) (V c main_v6) (V c main_v7) (V c main_v8)
        (V c main_arg4) (V c main_arg5) (V c main_arg6)) := by
  show (cfg0.win 9).cut (grid0.coords t) ((dat0 V c).after 9 t) = _
  rw [after0_9]
  unfold out0_9
  rw [View.canon_unit_zero zeros2]
  simp only [View.ld_unit_zero (S := S6400x64) zeros2, View.ld_unit_zero (S := S6400x32) zeros2, View.ld_unit_zero (S := S64x64) zeros2,
    View.ld_unit_zero (S := S32x64) zeros2, View.ld_unit_zero (S := S64) zeros1]
  funext j
  obtain ⟨p, q, rfl⟩ : ∃ (p : Fin 6400) (q : Fin 64), j = ix2 p q := ⟨j 0, j 1, eq_ix2 j⟩
  have hp := points t
  have hlt : t.val * 6400 + p.val < 1600000 := by have := p.isLt; omega
  show k0_pay1 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q)
    = Cert.Spec.msgK (V c main_v4) (V c main_v5) (V c main_arg2) (V c main_v6) (V c main_v7) (V c main_v8) (V c main_arg4) (V c main_arg5) (V c main_arg6) (((cfg0.win 9).blk t).view.emb (ix2 p q))
  rw [outBlock_at t p q ⟨t.val * 6400 + p.val, hlt⟩ rfl]
  refine (pay_apply _ _ _ _ _ _ _ _ _ p q).trans ?_
  show _ = Cert.Spec.msgAt (V c main_v4) (V c main_v5) (V c main_arg2) (V c main_v6) (V c main_v7) (V c main_v8) (V c main_arg4) (V c main_arg5) (V c main_arg6) ⟨t.val * 6400 + p.val, hlt⟩ q
  unfold Cert.Spec.msgAt Cert.Spec.msgHid
  simp only [srcRows_at V c t p _ ⟨t.val * 6400 + p.val, hlt⟩ rfl, dstRows_at V c t p _ ⟨t.val * 6400 + p.val, hlt⟩ rfl,
    attrRows_at V c t p _ ⟨t.val * 6400 + p.val, hlt⟩ rfl, wSrc_at V c t, wDst_at V c t, wAttr_at V c t, bias1_at V c t,
    w2_at V c t, bias2_at V c t]

/-- The output array of region 0 after its run, from the arrays it was entered with. -/
theorem msg_arr (c : Dev nD) :
    (dat0 (F := Ideal) V c).arrAt 9 cfg0.N
      = Cert.Spec.msgK (V c main_v4) (V c main_v5) (V c main_arg2) (V c main_v6) (V c main_v7) (V c main_v8)
          (V c main_arg4) (V c main_arg5) (V c main_arg6) := by
  exact (dat0 (F := Ideal) V c).arrAt_eq_of_cover 9
    (Cert.Spec.msgK (V c main_v4) (V c main_v5) (V c main_arg2) (V c main_v6) (V c main_v7) (V c main_v8) (V c main_arg4) (V c main_arg5) (V c main_arg6))
    (fun t _ => flushed_msg V c t) rows_covered

end Cert.KernelIdeal.MsgRegion

end
-- ==== Proof.UpdRegion.lean ====
/-
  Region 1 (the update kernel) read as a value: whatever the arrays hold when the region is entered, after its 20 grid
  points the output array holds every node's normalised row — block `t` is rows `5000·t … 5000·t + 4999`, computed from the
  same rows of the node array and of the aggregated messages and from the whole weight, scale and shift arrays.
-/
import proofs.«410363_j75831942578740_1_alg».proof.Proof.Gen.KernelIdeal.Frame
import proofs.«410363_j75831942578740_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdRegion

open Cert.KernelIdeal Cert.KernelIdeal.Gen Idealize.ShloMosaic Idealize.ShloMosaic.TcCoe Idealize.ShloMosaic.ValueIdx
open scoped BigOperators

variable (V : (c : Dev nD) → (b : Ref sig .tc) → Buf (Elt Ideal) ((c : Thread nD τ).loc b))

/-! ## A matrix product with the weight blocks, read at an index -/

/-- The left operand's row is the output's row. -/
theorem lhs_dot_0 (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]; rfl
/-- The left operand's column is the contracted coordinate. -/
theorem lhs_dot_1 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single (cl := 1) rfl j k
/-- The right operand's row is the contracted coordinate. -/
theorem rhs_dot_0 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single (cr := 0) rfl j k
/-- The right operand's column is the output's column. -/
theorem rhs_dot_1 (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]; rfl

/-- A [5000,64] by [64,64] product into a zero accumulator, at `(r, q)`: `∑ k, lhs[r,k] · rhs[k,q]`. -/
theorem matmul_at {φ₁ φ₂ : FTy} (lhs : FVec Ideal S5000x64 φ₁) (rhs : FVec Ideal S64x64 φ₂) (r : Fin 5000) (q : Fin 64) :
    matmul dot_S5000x64_S64x64_S5000x64_1_0_0_1_n_n none lhs rhs (constant S5000x64 .f32 0x00000000#32) (ix2 r q)
      = ∑ k : Fin 64, lhs (ix2 r k) * rhs (ix2 k q) := by
  refine (Ideal.matmul_constant_zero_apply dot_S5000x64_S64x64_S5000x64_1_0_0_1_n_n none lhs rhs (ix2 r q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 r q) ((contrEquiv1 dot_S5000x64_S64x64_S5000x64_1_0_0_1_n_n 64 rfl rfl).symm k) = ix2 r k := by
    funext a; apply Fin.ext
    match a with
    | ⟨0, _⟩ => exact lhs_dot_0 _ _
    | ⟨1, _⟩ => exact (lhs_dot_1 _ _).trans hk
  have hr : dot_S5000x64_S64x64_S5000x64_1_0_0_1_n_n.rhsIdx (ix2 r q) ((contrEquiv1 dot_S5000x64_S64x64_S5000x64_1_0_0_1_n_n 64 rfl rfl).symm k) = ix2 k q := by
    funext a; apply Fin.ext
    match a with
    | ⟨0, _⟩ => exact (rhs_dot_0 _ _).trans hk
    | ⟨1, _⟩ => exact rhs_dot_1 _ _
  rw [hl, hr]

/-! ## The column forms of a cast and a broadcast, and a row's sum -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 64 lanes of a [5000,64] vector, at row `r`. -/
theorem rowSum_at (src : FVec Ideal S5000x64 .f32) (hφ : FKind.Formats .f32) (hacc : (0x00000000#32 : BitVec 32) = 0x00000000#32)
    (r : Fin 5000) :
    multiReduction (F := Ideal) .add [1] S5000 src 0x00000000#32 reduces_S5000x64_S5000 hφ hacc (ix1 r) = ∑ k : Fin 64, src (ix2 r k) := by
  refine (Ideal.multiReduction_add_single src 0x00000000#32 reduces_S5000x64_S5000 hφ hacc (ix1 r)).trans ?_
  refine Finset.sum_congr rfl fun k _ => congrArg src (funext fun a => Fin.ext ?_)
  match a with
  | ⟨0, _⟩ => rfl
  | ⟨1, _⟩ => rfl

/-! ## The payload at an index -/

/-- A scalar literal at the ideal values is the extended real its word encodes. -/
theorem scalar_ofBits (φ : FTy) (b : BitVec φ.bits) : Scalar.ofBits (F := Ideal) φ b = Ideal.ofBits φ b := rfl
/-- The logistic of a vector at an index. -/
theorem logistic_apply {s : Shape} {φ : FTy} (a : FVec Ideal s φ) (i : s.Idx) : logistic a i = Ideal.logistic (a i) := rfl
/-- The reciprocal square root of a vector at an index. -/
theorem rsqrt_apply {s : Shape} {φ : FTy} (a : FVec Ideal s φ) (i : s.Idx) : rsqrt a i = Ideal.rsqrt (a i) := rfl

/-- The stored value at `(r, q)` from the three vectors it is computed from: the row's entry less the row's mean, times
    the reciprocal square root of the mean of the row of squared deviations plus ε, scaled and shifted per column. -/
theorem pay1_gen (v30 : FVec Ideal S5000x64 .f32) (v34 : FVec Ideal S5000x1 .f32) (v39 : FVec Ideal S5000x64 .f32)
    (v51 v55 : Vec Ideal S64 .f32) (r : Fin 5000) (q : Fin 64) :
    k1_pay1 (F := Ideal) v30 v34 v39 v51 v55 (ix2 r q)
      = ((v30 (ix2 r q) - v34 (ix2 r (0 : Fin 1))) * Ideal.rsqrt (Ideal.div (∑ k : Fin 64, v39 (ix2 r k)) Spec.c64 + Spec.cEps))
          * v51 (ix1 q) + v55 (ix1 q) := by
  unfold k1_pay1
  simp only [addf_apply, mulf_apply, subf_apply, divf_apply, rsqrt_apply, broadcastTo_a1_ab_apply, broadcastTo_1b_ab_apply,
    shapeCast_a_1a_apply, shapeCast_a_a1_apply, broadcast_apply, scalar_ofBits]
  exact congrArg (fun s => ((v30 (ix2 r q) - v34 (ix2 r (0 : Fin 1))) * Ideal.rsqrt (Ideal.div s Spec.c64 + Spec.cEps))
    * v51 (ix1 q) + v55 (ix1 q)) (rowSum_at _ _ _ r)

section Payload
variable (x0 x1 : Vec Ideal S5000x64 .f32) (x2 x3 : Vec Ideal S64x64 .f32) (x4 : Vec Ideal S64 .f32)
  (x5 : Vec Ideal S64x64 .f32) (x6 x7 x8 : Vec Ideal S64 .f32) (X A : Spec.SN64.Idx → EReal) (r : Fin 5000) (n : Fin 100000)
  (h0 : ∀ k : Fin 64, x0 (ix2 r k) = X (ix2 n k)) (h1 : ∀ k : Fin 64, x1 (ix2 r k) = A (ix2 n k))
include h0 h1

/-- The residual row of a block: where row `r` of the two row blocks is row `n` of the node array `X` and of the
    aggregated messages `A`, entry `(r, q)` is `x + o · logistic o` of node `n`, column `q`. -/
theorem pay2_at (q : Fin 64) :
    k1_pay2 (F := Ideal) x0 x1 x2 x3 x4 x5 x6 (ix2 r q) = Spec.updRes X A x2 x3 x4 x5 x6 n q := by
  unfold k1_pay2 Spec.updRes Spec.updOut Spec.updHid
  simp only [addf_apply, mulf_apply, maximumf_apply, logistic_apply, matmul_at, truncf_apply, shapeCast_self,
    broadcastTo_1b_ab_apply, shapeCast_a_1a_apply, broadcast_apply, scalar_ofBits, Ideal.ofBits_zero_f32, h0, h1]

/-- The row mean of a block, kept as a column: at `(r, 0)` the mean of node `n`'s residual row. -/
theorem pay3_at (u : Fin 1) :
    k1_pay3 (F := Ideal) x0 x1 x2 x3 x4 x5 x6 (ix2 r u) = Spec.mean64 (fun k => Spec.updRes X A x2 x3 x4 x5 x6 n k) := by
  unfold k1_pay3 Spec.mean64
  simp only [divf_apply, shapeCast_a_a1_apply, broadcast_apply, scalar_ofBits]
  exact congrArg (fun s => Ideal.div s Spec.c64)
    ((rowSum_at _ _ _ r).trans (Finset.sum_congr rfl fun k _ => pay2_at x0 x1 x2 x3 x4 x5 x6 X A r n h0 h1 k))

/-- The squared deviation from the row mean, at `(r, q)`. -/
theorem pay4_at (q : Fin 64) :
    k1_pay4 (F := Ideal) x0 x1 x2 x3 x4 x5 x6 (ix2 r q)
      = (Spec.updRes X A x2 x3 x4 x5 x6 n q - Spec.mean64 (fun k => Spec.updRes X A x2 x3 x4 x5 x6 n k))
        * (Spec.updRes X A x2 x3 x4 x5 x6 n q - Spec.mean64 (fun k => Spec.updRes X A x2 x3 x4 x5 x6 n k)) := by
  unfold k1_pay4
  simp only [mulf_apply, subf_apply, broadcastTo_a1_ab_apply, pay2_at x0 x1 x2 x3 x4 x5 x6 X A r n h0 h1,
    pay3_at x0 x1 x2 x3 x4 x5 x6 X A r n h0 h1]

/-- The stored value at `(r, q)`: node `n`'s residual row normalised, scaled and shifted, at column `q`. -/
theorem pay1_at (q : Fin 64) :
    k1_pay1 (F := Ideal) (k1_pay2 x0 x1 x2 x3 x4 x5 x6) (k1_pay3 x0 x1 x2 x3 x4 x5 x6) (k1_pay4 x0 x1 x2 x3 x4 x5 x6) x7 x8 (ix2 r q)
      = Spec.normRow (fun k => Spec.updRes X A x2 x3 x4 x5 x6 n k) x7 x8 q := by
  rw [pay1_gen, pay2_at x0 x1 x2 x3 x4 x5 x6 X A r n h0 h1 q, pay3_at x0 x1 x2 x3 x4 x5 x6 X A r n h0 h1 0]
  simp only [pay4_at x0 x1 x2 x3 x4 x5 x6 X A r n h0 h1]
  rfl

end Payload

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the two row-blocked inputs and the output are at block row `t`, column block 0;
    every other window's one block is the whole of its array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0
    ∧ win1_9.index t (0 : Fin 2) = t.val ∧ win1_9.index t (1 : Fin 2) = 0 :=
  (by decide +kernel : ∀ t : Fin grid1.N, _)

/-- Row `p` of the node array's block at point `t` is row `5000·t + p` of the array. -/
theorem blk0_at (c : Dev nD) (t : Fin cfg1.N) (p : Fin 5000) (k : Fin 64) (n : Fin 100000) (hn : n.val = t.val * 5000 + p.val) :
    (iblk1 V c 0 t : Vec Ideal S5000x64 .f32) (ix2 p k) = (V c main_arg0 : Spec.SN64.Idx → EReal) (ix2 n k) := by
  obtain ⟨e00, e01, -⟩ := idx_facts t
  show V c main_arg0 (((cfg1.win 0).blk t).view.emb (ix2 p k)) = V c main_arg0 (ix2 n k)
  refine congrArg _ (funext fun a => Fin.ext ?_)
  match a with
  | ⟨0, _⟩ => show win1_0.index t (0 : Fin 2) * 5000 + 1 * p.val = n.val; omega
  | ⟨1, _⟩ => show win1_0.index t (1 : Fin 2) * 64 + 1 * k.val = k.val; omega

/-- Row `p` of the aggregated messages' block at point `t` is row `5000·t + p` of the array. -/
theorem blk1_at (c : Dev nD) (t : Fin cfg1.N) (p : Fin 5000) (k : Fin 64) (n : Fin 100000) (hn : n.val = t.val * 5000 + p.val) :
    (iblk1 V c 1 t : Vec Ideal S5000x64 .f32) (ix2 p k) = (V c main_v12 : Spec.SN64.Idx → EReal) (ix2 n k) := by
  obtain ⟨-, -, e10, e11, -⟩ := idx_facts t
  show V c main_v12 (((cfg1.win 1).blk t).view.emb (ix2 p k)) = V c main_v12 (ix2 n k)
  refine congrArg _ (funext fun a => Fin.ext ?_)
  match a with
  | ⟨0, _⟩ => show win1_1.index t (0 : Fin 2) * 5000 + 1 * p.val = n.val; omega
  | ⟨1, _⟩ => show win1_1.index t (1 : Fin 2) * 64 + 1 * k.val = k.val; omega

/-- The one block of each weight matrix and of each bias, scale and shift vector is the whole array. -/
theorem blk2_eq (c : Dev nD) (t : Fin cfg1.N) : (iblk1 V c 2 t : Vec Ideal S64x64 .f32) = V c main_v13 := by
  obtain ⟨-, -, -, -, e0, e1, -⟩ := idx_facts t
  funext y
  show V c main_v13 (((cfg1.win 2).blk t).view.emb y) = V c main_v13 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem blk3_eq (c : Dev nD) (t : Fin cfg1.N) : (iblk1 V c 3 t : Vec Ideal S64x64 .f32) = V c main_v14 := by
  obtain ⟨-, -, -, -, -, -, e0, e1, -⟩ := idx_facts t
  funext y
  show V c main_v14 (((cfg1.win 3).blk t).view.emb y) = V c main_v14 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem blk4_eq (c : Dev nD) (t : Fin cfg1.N) : (iblk1 V c 4 t : Vec Ideal S64 .f32) = V c main_arg8 := by
  obtain ⟨-, -, -, -, -, -, -, -, e0, -⟩ := idx_facts t
  funext y
  show V c main_arg8 (((cfg1.win 4).blk t).view.emb y) = V c main_arg8 y
  refine congrArg _ (funext fun a => Fin.ext ?_)
  match a with
  | ⟨0, _⟩ => show win1_4.index t (0 : Fin 1) * 64 + 1 * (y 0).val = (y 0).val; omega
theorem blk5_eq (c : Dev nD) (t : Fin cfg1.N) : (iblk1 V c 5 t : Vec Ideal S64x64 .f32) = V c main_arg9 := by
  obtain ⟨-, -, -, -, -, -, -, -, -, e0, e1, -⟩ := idx_facts t
  funext y
  show V c main_arg9 (((cfg1.win 5).blk t).view.emb y) = V c main_arg9 y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega
theorem blk6_eq (c : Dev nD) (t : Fin cfg1.N) : (iblk1 V c 6 t : Vec Ideal S64 .f32) = V c main_arg10 := by
  obtain ⟨-, -, -, -, -, -, -, -, -, -, -, e0, -⟩ := idx_facts t
  funext y
  show V c main_arg10 (((cfg1.win 6).blk t).view.emb y) = V c main_arg10 y
  refine congrArg _ (funext fun a => Fin.ext ?_)
  match a with
  | ⟨0, _⟩ => show win1_6.index t (0 : Fin 1) * 64 + 1 * (y 0).val = (y 0).val; omega
theorem blk7_eq (c : Dev nD) (t : Fin cfg1.N) : (iblk1 V c 7 t : Vec Ideal S64 .f32) = V c main_arg11 := by
  obtain ⟨-, -, -, -, -, -, -, -, -, -, -, -, e0, -⟩ := idx_facts t
  funext y
  show V c main_arg11 (((cfg1.win 7).blk t).view.emb y) = V c main_arg11 y
  refine congrArg _ (funext fun a => Fin.ext ?_)
  match a with
  | ⟨0, _⟩ => show win1_7.index t (0 : Fin 1) * 64 + 1 * (y 0).val = (y 0).val; omega
theorem blk8_eq (c : Dev nD) (t : Fin cfg1.N) : (iblk1 V c 8 t : Vec Ideal S64 .f32) = V c main_arg12 := by
  obtain ⟨-, -, -, -, -, -, -, -, -, -, -, -, -, e0, -⟩ := idx_facts t
  funext y
  show V c main_arg12 (((cfg1.win 8).blk t).view.emb y) = V c main_arg12 y
  refine congrArg _ (funext fun a => Fin.ext ?_)
  match a with
  | ⟨0, _⟩ => show win1_8.index t (0 : Fin 1) * 64 + 1 * (y 0).val = (y 0).val; omega

/-- The stored block at `(r, q)`, the weight, bias, scale and shift blocks named as the arrays they are: the updated
    node array at `(n, q)`. -/
theorem block_at (x0 x1 : Vec Ideal S5000x64 .f32) (x2 x3 : Vec Ideal S64x64 .f32) (x4 : Vec Ideal S64 .f32)
    (x5 : Vec Ideal S64x64 .f32) (x6 x7 x8 : Vec Ideal S64 .f32) (X A : Spec.SN64.Idx → EReal)
    (U2 U3 : Spec.S64x64.Idx → EReal) (b1 : Spec.S64.Idx → EReal) (U5 : Spec.S64x64.Idx → EReal) (b2 g bt : Spec.S64.Idx → EReal)
    (r : Fin 5000) (n : Fin 100000)
    (h0 : ∀ k : Fin 64, x0 (ix2 r k) = X (ix2 n k)) (h1 : ∀ k : Fin 64, x1 (ix2 r k) = A (ix2 n k))
    (e2 : x2 = U2) (e3 : x3 = U3) (e4 : x4 = b1) (e5 : x5 = U5) (e6 : x6 = b2) (e7 : x7 = g) (e8 : x8 = bt) (q : Fin 64) :
    k1_pay1 (F := Ideal) (k1_pay2 x0 x1 x2 x3 x4 x5 x6) (k1_pay3 x0 x1 x2 x3 x4 x5 x6) (k1_pay4 x0 x1 x2 x3 x4 x5 x6) x7 x8 (ix2 r q)
      = Spec.updK X A U2 U3 b1 U5 b2 g bt (ix2 n q) := by
  subst e2 e3 e4 e5 e6 e7 e8
  exact pay1_at x0 x1 x2 x3 x4 x5 x6 x7 x8 X A r n h0 h1 q

/-- What point `t` writes back is block `t` of the updated node array of the arrays the region was entered with. -/
theorem flushed_eq (c : Dev nD) (t : Fin cfg1.N) :
    (dat1 (F := Ideal) V c).flushed 9 t = ((cfg1.win 9).blk t).view.read (Elt Ideal)
      (Cert.Spec.updK (V c main_arg0) (V c main_v12) (V c main_v13) (V c main_v14) (V c main_arg8) (V c main_arg9)
          (V c main_arg10) (V c main_arg11) (V c main_arg12)) := by
  show (cfg1.win 9).cut (grid1.coords t) ((dat1 (F := Ideal) V c).after 9 t) = _
  rw [after1_9]
  unfold out1_9
  rw [View.canon_unit_zero hz2]
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  have hN : t.val < 20 := Nat.lt_of_lt_of_eq t.isLt N_1
  obtain ⟨-, -, -, -, -, -, -, -, -, -, -, -, -, -, e90, e91⟩ := idx_facts t
  have hi : ((cfg1.win 9).blk t).view.emb (ix2 p q) = ix2 (⟨t.val * 5000 + p.val, by omega⟩ : Fin 100000) q := by
    funext a; apply Fin.ext
    match a with
    | ⟨0, _⟩ => show win1_9.index t (0 : Fin 2) * 5000 + 1 * p.val = t.val * 5000 + p.val; omega
    | ⟨1, _⟩ => show win1_9.index t (1 : Fin 2) * 64 + 1 * q.val = q.val; omega
  refine (block_at (iblk1 V c 0 t) (iblk1 V c 1 t) (iblk1 V c 2 t) (iblk1 V c 3 t) (iblk1 V c 4 t) (iblk1 V c 5 t)
    (iblk1 V c 6 t) (iblk1 V c 7 t) (iblk1 V c 8 t)
    (V c main_arg0) (V c main_v12) (V c main_v13) (V c main_v14) (V c main_arg8) (V c main_arg9) (V c main_arg10)
    (V c main_arg11) (V c main_arg12) p ⟨t.val * 5000 + p.val, by omega⟩
    (fun k => blk0_at V c t p k _ rfl) (fun k => blk1_at V c t p k _ rfl)
    (blk2_eq V c t) (blk3_eq V c t) (blk4_eq V c t) (blk5_eq V c t) (blk6_eq V c t) (blk7_eq V c t) (blk8_eq V c t) q).trans ?_
  exact (congrArg (Cert.Spec.updK (V c main_arg0) (V c main_v12) (V c main_v13) (V c main_v14) (V c main_arg8) (V c main_arg9)
          (V c main_arg10) (V c main_arg11) (V c main_arg12)) hi).symm

/-- An index of the output array is in point `t`'s block iff each coordinate is in the block's range on its axis. -/
theorem mem_blk9 (t : Fin cfg1.N) (i : S100000x64.Idx) :
    i ∈ ((cfg1.win 9).blk t).view.set ↔ ∀ a : Fin 2, win1_9.index t a * S5000x64.size a ≤ (i a).val
      ∧ (i a).val < win1_9.index t a * S5000x64.size a + S5000x64.size a := by
  show i ∈ ((View.whole main_v15).slice (win1_9.rect t)).set ↔ _
  rw [View.set_slice_whole, Rect.mem_set_unit]
  exact Iff.rfl

/-- Every row of the output array is in some point's block: row `n` in that of point `n / 5000`. -/
theorem cover (i : S100000x64.Idx) :
    ∃ t : Fin cfg1.N, (cfg1.win 9).flush t = true ∧ i ∈ ((cfg1.win 9).blk t).view.set := by
  have hi0 : (i 0).val < 100000 := idx2_lt0 i
  have hi1 : (i 1).val < 64 := idx2_lt1 i
  obtain ⟨t, ht⟩ : ∃ t : Fin cfg1.N, t.val = (i 0).val / 5000 :=
    ⟨⟨(i 0).val / 5000, Nat.lt_of_lt_of_eq (by omega : (i 0).val / 5000 < 20) N_1.symm⟩, rfl⟩
  obtain ⟨-, -, -, -, -, -, -, -, -, -, -, -, -, -, e90, e91⟩ := idx_facts t
  refine ⟨t, flush1_9 t, ?_⟩
  rw [mem_blk9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- The output array of region 1 after its run, from the arrays it was entered with. -/
theorem upd_arr (c : Dev nD) :
    (dat1 (F := Ideal) V c).arrAt 9 cfg1.N
      = Cert.Spec.updK (V c main_arg0) (V c main_v12) (V c main_v13) (V c main_v14) (V c main_arg8) (V c main_arg9)
          (V c main_arg10) (V c main_arg11) (V c main_arg12) :=
  (dat1 (F := Ideal) V c).arrAt_eq_of_cover 9
    (Cert.Spec.updK (V c main_arg0) (V c main_v12) (V c main_v13) (V c main_v14) (V c main_arg8) (V c main_arg9)
      (V c main_arg10) (V c main_arg11) (V c main_arg12))
    (fun t _ => flushed_eq V c t) cover

end Cert.KernelIdeal.UpdRegion

end
-- ==== Proof.KernelValue.lean ====
/-
  The kernel program's result as a function of its argument arrays: the last region's output array, entered with the node
  array, the scatter-added messages of the first region and the weight blocks, each read back through the host operations
  to the launch memory.
-/
import proofs.«410363_j75831942578740_1_alg».proof.Proof.Gen.KernelIdeal.Frame
import proofs.«410363_j75831942578740_1_alg».proof.Proof.KernelTerm
import proofs.«410363_j75831942578740_1_alg».proof.Proof.MsgRegion
import proofs.«410363_j75831942578740_1_alg».proof.Proof.UpdRegion
import proofs.«410363_j75831942578740_1_alg».proof.Proof.Spec
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- No operation of a literal stretch writes a given buffer: told apart as references, operation by operation. -/
local macro "nowrite " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## Each stretch of host operations, from any contents

The fold through a stretch at one of its result buffers, as the composed operations applied to what the stretch's
input buffers held. -/

section Stretches

variable (V : Valuation τ sig (Elt Ideal))

/-- A value stored at a typed reference and read back is itself. -/
theorem ofBuf_toBuf {T : BufTy} (x : StableHlo.TRef sig T) (v : T.Contents (Elt Ideal)) : x.ofBuf (x.toBuf v) = v := by
  obtain ⟨r, h, _, _⟩ := x; subst h; rfl

theorem rows_src : StableHlo.after hostOps0 V (Proc.devRef .tc main_v1) = Term.srcRow (V (Proc.devRef .tc main_arg1)) := by
  after_results_simp
  rfl

theorem rows_dst : StableHlo.after hostOps0 V (Proc.devRef .tc main_v3) = Term.dstRow (V (Proc.devRef .tc main_arg1)) := by
  after_results_simp
  rfl

attribute [local irreducible] Host.reduce Host.gather in
theorem take_src :
    StableHlo.after hostOps0_1 V (Proc.devRef .tc main_v4)
      = Term.takeOf (F := Ideal) (V (Proc.devRef .tc main_arg0)) (V (Proc.devRef .tc main_v1)) := by
  after_results_simp
  simp only [ofBuf_toBuf]
  rfl

attribute [local irreducible] Host.reduce Host.gather in
theorem take_dst :
    StableHlo.after hostOps0_2 V (Proc.devRef .tc main_v5)
      = Term.takeOf (F := Ideal) (V (Proc.devRef .tc main_arg0)) (V (Proc.devRef .tc main_v3)) := by
  after_results_simp
  simp only [ofBuf_toBuf]
  rfl

theorem block_w1s : StableHlo.after hostOps0_3 V (Proc.devRef .tc main_v6) = Term.w1s (F := Ideal) (V (Proc.devRef .tc main_arg3)) := by
  after_results_simp
  rfl

theorem block_w1d : StableHlo.after hostOps0_3 V (Proc.devRef .tc main_v7) = Term.w1d (F := Ideal) (V (Proc.devRef .tc main_arg3)) := by
  after_results_simp
  rfl

theorem block_w1e : StableHlo.after hostOps0_3 V (Proc.devRef .tc main_v8) = Term.w1e (F := Ideal) (V (Proc.devRef .tc main_arg3)) := by
  after_results_simp
  rfl

theorem block_u1a : StableHlo.after hostOps1 V (Proc.devRef .tc main_v13) = Term.u1a (F := Ideal) (V (Proc.devRef .tc main_arg7)) := by
  after_results_simp
  rfl

theorem block_u1b : StableHlo.after hostOps1 V (Proc.devRef .tc main_v14) = Term.u1b (F := Ideal) (V (Proc.devRef .tc main_arg7)) := by
  after_results_simp
  rfl

attribute [local irreducible] Host.scatterAdd in
theorem agg_of (EI : IVec S2x1600000 32) (h : V (Proc.devRef .tc main_v3) = Term.dstRow EI) :
    StableHlo.after hostOps1 V (Proc.devRef .tc main_v12) = Term.aggOf (F := Ideal) EI (V (Proc.devRef .tc main_v9)) := by
  after_results_simp
  rw [h]
  rfl

end Stretches

/-! ## The buffers at each boundary, read back to the launch memory -/

/-- A buffer the first stretch does not write is as launched after it; likewise through the later stretches. -/
theorem W1_of_unwritten (c : Dev nD) (b : Ref sig .tc) (h0 : ∀ op ∈ (hostOps0 : List (HloOp τ sig (Elt Ideal))), (Proc.devRef .tc b : DevRef τ sig) ∉ op.writes) :
    W1 (F := Ideal) m ρ c (Proc.devRef .tc b) = m ((c : Thread nD τ).loc b) :=
  StableHlo.after_of_forall_not_mem _ _ h0
theorem W2_of_unwritten (c : Dev nD) (b : Ref sig .tc) (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes) :
    W2 (F := Ideal) m ρ c (Proc.devRef .tc b) = m ((c : Thread nD τ).loc b) :=
  (StableHlo.after_of_forall_not_mem _ _ h1).trans (W1_of_unwritten m ρ c b h0)
theorem W3_of_unwritten (c : Dev nD) (b : Ref sig .tc) (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) :
    W3 (F := Ideal) m ρ c (Proc.devRef .tc b) = m ((c : Thread nD τ).loc b) :=
  (StableHlo.after_of_forall_not_mem _ _ h2).trans (W2_of_unwritten m ρ c b h0 h1)
theorem W4_of_unwritten (c : Dev nD) (b : Ref sig .tc) (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes)
    (h3 : ∀ op ∈ (hostOps0_3 : List (HloOp τ sig (Elt Ideal))), (Proc.devRef .tc b : DevRef τ sig) ∉ op.writes) :
    W4 (F := Ideal) m ρ c (Proc.devRef .tc b) = m ((c : Thread nD τ).loc b) :=
  (StableHlo.after_of_forall_not_mem _ _ h3).trans (W3_of_unwritten m ρ c b h0 h1 h2)

/-! ### At the first region's entry -/

theorem W1_main_v1 (c : Dev nD) : W1 (F := Ideal) m ρ c (Proc.devRef .tc main_v1) = Term.srcRow (m ((c : Thread nD τ).loc main_arg1)) :=
  rows_src (W0 m ρ c)
theorem W1_main_v3 (c : Dev nD) : W1 (F := Ideal) m ρ c (Proc.devRef .tc main_v3) = Term.dstRow (m ((c : Thread nD τ).loc main_arg1)) :=
  rows_dst (W0 m ρ c)
theorem W2_main_v3 (c : Dev nD) : W2 (F := Ideal) m ρ c (Proc.devRef .tc main_v3) = Term.dstRow (m ((c : Thread nD τ).loc main_arg1)) :=
  (StableHlo.after_of_forall_not_mem _ _ (by nowrite hostOps0_1)).trans (W1_main_v3 m ρ c)
theorem W4_main_v3 (c : Dev nD) : W4 (F := Ideal) m ρ c (Proc.devRef .tc main_v3) = Term.dstRow (m ((c : Thread nD τ).loc main_arg1)) :=
  (StableHlo.after_of_forall_not_mem _ _ (by nowrite hostOps0_3)).trans
    ((StableHlo.after_of_forall_not_mem _ _ (by nowrite hostOps0_2)).trans (W2_main_v3 m ρ c))

theorem V4_main_v4 (c : Dev nD) :
    V4 (F := Ideal) m ρ c main_v4 = Term.takeOf (F := Ideal) (m ((c : Thread nD τ).loc main_arg0)) (Term.srcRow (m ((c : Thread nD τ).loc main_arg1))) :=
  calc W4 m ρ c (Proc.devRef .tc main_v4)
    _ = W3 m ρ c (Proc.devRef .tc main_v4) := StableHlo.after_of_forall_not_mem _ _ (by nowrite hostOps0_3)
    _ = W2 m ρ c (Proc.devRef .tc main_v4) := StableHlo.after_of_forall_not_mem _ _ (by nowrite hostOps0_2)
    _ = Term.takeOf (F := Ideal) (W1 m ρ c (Proc.devRef .tc main_arg0)) (W1 m ρ c (Proc.devRef .tc main_v1)) := take_src (W1 m ρ c)
    _ = _ := by rw [W1_main_v1, W1_of_unwritten m ρ c main_arg0 (by nowrite hostOps0)]

theorem V4_main_v5 (c : Dev nD) :
    V4 (F := Ideal) m ρ c main_v5 = Term.takeOf (F := Ideal) (m ((c : Thread nD τ).loc main_arg0)) (Term.dstRow (m ((c : Thread nD τ).loc main_arg1))) :=
  calc W4 m ρ c (Proc.devRef .tc main_v5)
    _ = W3 m ρ c (Proc.devRef .tc main_v5) := StableHlo.after_of_forall_not_mem _ _ (by nowrite hostOps0_3)
    _ = Term.takeOf (F := Ideal) (W2 m ρ c (Proc.devRef .tc main_arg0)) (W2 m ρ c (Proc.devRef .tc main_v3)) := take_dst (W2 m ρ c)
    _ = _ := by rw [W2_main_v3, W2_of_unwritten m ρ c main_arg0 (by nowrite hostOps0) (by nowrite hostOps0_1)]

theorem V4_main_v6 (c : Dev nD) : V4 (F := Ideal) m ρ c main_v6 = Term.w1s (F := Ideal) (m ((c : Thread nD τ).loc main_arg3)) :=
  (block_w1s (W3 m ρ c)).trans (congrArg Term.w1s (W3_of_unwritten m ρ c main_arg3 (by nowrite hostOps0) (by nowrite hostOps0_1) (by nowrite hostOps0_2)))
theorem V4_main_v7 (c : Dev nD) : V4 (F := Ideal) m ρ c main_v7 = Term.w1d (F := Ideal) (m ((c : Thread nD τ).loc main_arg3)) :=
  (block_w1d (W3 m ρ c)).trans (congrArg Term.w1d (W3_of_unwritten m ρ c main_arg3 (by nowrite hostOps0) (by nowrite hostOps0_1) (by nowrite hostOps0_2)))
theorem V4_main_v8 (c : Dev nD) : V4 (F := Ideal) m ρ c main_v8 = Term.w1e (F := Ideal) (m ((c : Thread nD τ).loc main_arg3)) :=
  (block_w1e (W3 m ρ c)).trans (congrArg Term.w1e (W3_of_unwritten m ρ c main_arg3 (by nowrite hostOps0) (by nowrite hostOps0_1) (by nowrite hostOps0_2)))

theorem V4_main_arg2 (c : Dev nD) : V4 (F := Ideal) m ρ c main_arg2 = m ((c : Thread nD τ).loc main_arg2) :=
  W4_of_unwritten m ρ c main_arg2 (by nowrite hostOps0) (by nowrite hostOps0_1) (by nowrite hostOps0_2) (by nowrite hostOps0_3)
theorem V4_main_arg4 (c : Dev nD) : V4 (F := Ideal) m ρ c main_arg4 = m ((c : Thread nD τ).loc main_arg4) :=
  W4_of_unwritten m ρ c main_arg4 (by nowrite hostOps0) (by nowrite hostOps0_1) (by nowrite hostOps0_2) (by nowrite hostOps0_3)
theorem V4_main_arg5 (c : Dev nD) : V4 (F := Ideal) m ρ c main_arg5 = m ((c : Thread nD τ).loc main_arg5) :=
  W4_of_unwritten m ρ c main_arg5 (by nowrite hostOps0) (by nowrite hostOps0_1) (by nowrite hostOps0_2) (by nowrite hostOps0_3)
theorem V4_main_arg6 (c : Dev nD) : V4 (F := Ideal) m ρ c main_arg6 = m ((c : Thread nD τ).loc main_arg6) :=
  W4_of_unwritten m ρ c main_arg6 (by nowrite hostOps0) (by nowrite hostOps0_1) (by nowrite hostOps0_2) (by nowrite hostOps0_3)

/-! ### At the first region's exit and the second region's entry -/

/-- The messages: the first region's output array, from the arrays it was entered with. -/
theorem W5_main_v9 (c : Dev nD) :
    W5 (F := Ideal) m ρ c (Proc.devRef .tc main_v9)
      = Cert.Spec.msgK (Term.takeOf (F := Ideal) (m ((c : Thread nD τ).loc main_arg0)) (Term.srcRow (m ((c : Thread nD τ).loc main_arg1)))) (Term.takeOf (F := Ideal) (m ((c : Thread nD τ).loc main_arg0)) (Term.dstRow (m ((c : Thread nD τ).loc main_arg1)))) (m ((c : Thread nD τ).loc main_arg2))
          (Term.w1s (F := Ideal) (m ((c : Thread nD τ).loc main_arg3))) (Term.w1d (F := Ideal) (m ((c : Thread nD τ).loc main_arg3))) (Term.w1e (F := Ideal) (m ((c : Thread nD τ).loc main_arg3))) (m ((c : Thread nD τ).loc main_arg4)) (m ((c : Thread nD τ).loc main_arg5)) (m ((c : Thread nD τ).loc main_arg6)) := by
  refine (W5_arr (F := Ideal) m ρ c 9).trans ((MsgRegion.msg_arr (V4 m ρ) c).trans ?_)
  rw [V4_main_v4, V4_main_v5, V4_main_v6, V4_main_v7, V4_main_v8, V4_main_arg2, V4_main_arg4, V4_main_arg5, V4_main_arg6]

/-- A buffer that is no array of the first region and that no stretch before it writes is as launched at its exit. -/
theorem W5_launched (c : Dev nD) (b : Ref sig .tc) (hb : ∀ w, Pipeline.arrRef spec0 w ≠ b) (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes)
    (h3 : ∀ op ∈ (hostOps0_3 : List (HloOp τ sig (Elt Ideal))), (Proc.devRef .tc b : DevRef τ sig) ∉ op.writes) :
    W5 (F := Ideal) m ρ c (Proc.devRef .tc b) = m ((c : Thread nD τ).loc b) :=
  (W5_of_ne m ρ c b hb).trans (W4_of_unwritten m ρ c b h0 h1 h2 h3)

theorem W5_main_v3 (c : Dev nD) : W5 (F := Ideal) m ρ c (Proc.devRef .tc main_v3) = Term.dstRow (m ((c : Thread nD τ).loc main_arg1)) :=
  (W5_of_ne m ρ c main_v3 (by decide)).trans (W4_main_v3 m ρ c)

theorem V6_main_arg0 (c : Dev nD) : V6 (F := Ideal) m ρ c main_arg0 = m ((c : Thread nD τ).loc main_arg0) :=
  (StableHlo.after_of_forall_not_mem _ _ (by nowrite hostOps1)).trans (W5_launched m ρ c main_arg0 (by decide) (by nowrite hostOps0) (by nowrite hostOps0_1) (by nowrite hostOps0_2) (by nowrite hostOps0_3))
theorem V6_main_arg8 (c : Dev nD) : V6 (F := Ideal) m ρ c main_arg8 = m ((c : Thread nD τ).loc main_arg8) :=
  (StableHlo.after_of_forall_not_mem _ _ (by nowrite hostOps1)).trans (W5_launched m ρ c main_arg8 (by decide) (by nowrite hostOps0) (by nowrite hostOps0_1) (by nowrite hostOps0_2) (by nowrite hostOps0_3))
theorem V6_main_arg9 (c : Dev nD) : V6 (F := Ideal) m ρ c main_arg9 = m ((c : Thread nD τ).loc main_arg9) :=
  (StableHlo.after_of_forall_not_mem _ _ (by nowrite hostOps1)).trans (W5_launched m ρ c main_arg9 (by decide) (by nowrite hostOps0) (by nowrite hostOps0_1) (by nowrite hostOps0_2) (by nowrite hostOps0_3))
theorem V6_main_arg10 (c : Dev nD) : V6 (F := Ideal) m ρ c main_arg10 = m ((c : Thread nD τ).loc main_arg10) :=
  (StableHlo.after_of_forall_not_mem _ _ (by nowrite hostOps1)).trans (W5_launched m ρ c main_arg10 (by decide) (by nowrite hostOps0) (by nowrite hostOps0_1) (by nowrite hostOps0_2) (by nowrite hostOps0_3))
theorem V6_main_arg11 (c : Dev nD) : V6 (F := Ideal) m ρ c main_arg11 = m ((c : Thread nD τ).loc main_arg11) :=
  (StableHlo.after_of_forall_not_mem _ _ (by nowrite hostOps1)).trans (W5_launched m ρ c main_arg11 (by decide) (by nowrite hostOps0) (by nowrite hostOps0_1) (by nowrite hostOps0_2) (by nowrite hostOps0_3))
theorem V6_main_arg12 (c : Dev nD) : V6 (F := Ideal) m ρ c main_arg12 = m ((c : Thread nD τ).loc main_arg12) :=
  (StableHlo.after_of_forall_not_mem _ _ (by nowrite hostOps1)).trans (W5_launched m ρ c main_arg12 (by decide) (by nowrite hostOps0) (by nowrite hostOps0_1) (by nowrite hostOps0_2) (by nowrite hostOps0_3))

theorem V6_main_v13 (c : Dev nD) : V6 (F := Ideal) m ρ c main_v13 = Term.u1a (F := Ideal) (m ((c : Thread nD τ).loc main_arg7)) :=
  (block_u1a (W5 m ρ c)).trans (congrArg Term.u1a (W5_launched m ρ c main_arg7 (by decide) (by nowrite hostOps0) (by nowrite hostOps0_1) (by nowrite hostOps0_2) (by nowrite hostOps0_3)))
theorem V6_main_v14 (c : Dev nD) : V6 (F := Ideal) m ρ c main_v14 = Term.u1b (F := Ideal) (m ((c : Thread nD τ).loc main_arg7)) :=
  (block_u1b (W5 m ρ c)).trans (congrArg Term.u1b (W5_launched m ρ c main_arg7 (by decide) (by nowrite hostOps0) (by nowrite hostOps0_1) (by nowrite hostOps0_2) (by nowrite hostOps0_3)))

/-- The aggregated messages: the scatter-add of the first region's output by the destination row. -/
theorem V6_main_v12 (c : Dev nD) :
    V6 (F := Ideal) m ρ c main_v12
      = Term.aggOf (F := Ideal) (m ((c : Thread nD τ).loc main_arg1))
          (Cert.Spec.msgK (Term.takeOf (F := Ideal) (m ((c : Thread nD τ).loc main_arg0)) (Term.srcRow (m ((c : Thread nD τ).loc main_arg1)))) (Term.takeOf (F := Ideal) (m ((c : Thread nD τ).loc main_arg0)) (Term.dstRow (m ((c : Thread nD τ).loc main_arg1)))) (m ((c : Thread nD τ).loc main_arg2))
          (Term.w1s (F := Ideal) (m ((c : Thread nD τ).loc main_arg3))) (Term.w1d (F := Ideal) (m ((c : Thread nD τ).loc main_arg3))) (Term.w1e (F := Ideal) (m ((c : Thread nD τ).loc main_arg3))) (m ((c : Thread nD τ).loc main_arg4)) (m ((c : Thread nD τ).loc main_arg5)) (m ((c : Thread nD τ).loc main_arg6))) :=
  (agg_of (W5 m ρ c) (m ((c : Thread nD τ).loc main_arg1)) (W5_main_v3 m ρ c)).trans (congrArg (Term.aggOf (F := Ideal) (m ((c : Thread nD τ).loc main_arg1))) (W5_main_v9 m ρ c))

/-- The result array at the last boundary's contents is the update of the node array by the aggregated messages. -/
theorem result_eq (c : Dev nD) :
    W7 (F := Ideal) m ρ c (Proc.devRef .tc main_v15)
      = Cert.Spec.updK (m ((c : Thread nD τ).loc main_arg0))
          (Term.aggOf (F := Ideal) (m ((c : Thread nD τ).loc main_arg1))
            (Cert.Spec.msgK (Term.takeOf (F := Ideal) (m ((c : Thread nD τ).loc main_arg0)) (Term.srcRow (m ((c : Thread nD τ).loc main_arg1)))) (Term.takeOf (F := Ideal) (m ((c : Thread nD τ).loc main_arg0)) (Term.dstRow (m ((c : Thread nD τ).loc main_arg1)))) (m ((c : Thread nD τ).loc main_arg2))
              (Term.w1s (F := Ideal) (m ((c : Thread nD τ).loc main_arg3))) (Term.w1d (F := Ideal) (m ((c : Thread nD τ).loc main_arg3))) (Term.w1e (F := Ideal) (m ((c : Thread nD τ).loc main_arg3))) (m ((c : Thread nD τ).loc main_arg4)) (m ((c : Thread nD τ).loc main_arg5)) (m ((c : Thread nD τ).loc main_arg6))))
          (Term.u1a (F := Ideal) (m ((c : Thread nD τ).loc main_arg7))) (Term.u1b (F := Ideal) (m ((c : Thread nD τ).loc main_arg7))) (m ((c : Thread nD τ).loc main_arg8)) (m ((c : Thread nD τ).loc main_arg9)) (m ((c : Thread nD τ).loc main_arg10)) (m ((c : Thread nD τ).loc main_arg11)) (m ((c : Thread nD τ).loc main_arg12)) := by
  refine (W7_arr (F := Ideal) m ρ c 9).trans ((UpdRegion.upd_arr (V6 m ρ) c).trans ?_)
  rw [V6_main_arg0, V6_main_v12, V6_main_v13, V6_main_v14, V6_main_arg8, V6_main_arg9, V6_main_arg10, V6_main_arg11,
    V6_main_arg12]

end Cert.KernelIdeal.KValue

end
-- ==== Proof.RefTerm.lean ====
/-
  The reference's host operations composed as pure functions of its argument arrays, one `let` per operation in the
  program's order: the index column of a row of edge endpoints, the message layer over the concatenated edge inputs,
  the update layer with its residual and row normalisation over the concatenated node inputs, and the whole result.
-/
import proofs.«410363_j75831942578740_1_alg».proof.Proof.Gen.ReferenceIdeal

noncomputable section

namespace Cert.ReferenceIdeal.Term

open Cert.ReferenceIdeal Cert.ReferenceIdeal.Gen Idealize.ShloMosaic

variable {F : FTy → Type} [FloatOps F]

/-- A row of endpoints as gather indices: a negative entry shifted by the node count, then a trailing unit axis. -/
def idxOf (row : IVec S1600000 32) : IVec S1600000x1 32 :=
  broadcastInDim S1600000x1 ![0] bcast_S1600000_S1600000x1_0
    (select (cmpi .slt row (broadcastInDim S1600000 ![] bcast_S_S1600000 (constantI S_ 32 0#32)))
      (addi row (broadcastInDim S1600000 ![] bcast_S_S1600000 (constantI S_ 32 100000#32))) row)

/-- The message layer: `max([xs | xd | ea] · W1 + b1, 0) · W2 + b2`. -/
def refMsg (XS XD : FVec F S1600000x64 .f32) (EA : FVec F S1600000x32 .f32) (W1 : FVec F S160x64 .f32) (b1 : FVec F S64 .f32)
    (W2 : FVec F S64x64 .f32) (b2 : FVec F S64 .f32) : FVec F S1600000x64 .f32 :=
  let v18 : FVec F S1600000x160 .f32 := concatenate S1600000x160 1 [⟨S1600000x64, XS⟩, ⟨S1600000x64, XD⟩, ⟨S1600000x32, EA⟩] concatenates_S1600000x64_S1600000x64_S1600000x32_S1600000x160_d1
  let v19 : FVec F S1600000x64 .f32 := Host.dotGeneral dot_S1600000x160_S160x64_S1600000x64_1_0_0_1_n_n none v18 W1
  let v21 : FVec F S1600000x64 .f32 := broadcastInDim S1600000x64 ![0, 1] bcast_S1x64_S1600000x64_0_1 (broadcastInDim S1x64 ![1] bcast_S64_S1x64_1 b1)
  let v22 : FVec F S1600000x64 .f32 := addf v19 v21
  let v23 : FVec F S1600000x64 .f32 := maximumf v22 (broadcastInDim S1600000x64 ![] bcast_S_S1600000x64 (constant S_ .f32 0x00000000#32))
  let v24 : FVec F S1600000x64 .f32 := Host.dotGeneral dot_S1600000x64_S64x64_S1600000x64_1_0_0_1_n_n none v23 W2
  let v26 : FVec F S1600000x64 .f32 := broadcastInDim S1600000x64 ![0, 1] bcast_S1x64_S1600000x64_0_1 (broadcastInDim S1x64 ![1] bcast_S64_S1x64_1 b2)
  addf v24 v26

/-- The residual row `x + o · (1 / (1 + exp(−o)))` with `o = max([x | agg] · U1 + ub1, 0) · U2 + ub2`. -/
def refRes (X AGG : FVec F S100000x64 .f32) (U1 : FVec F S128x64 .f32) (ub1 : FVec F S64 .f32) (U2 : FVec F S64x64 .f32)
    (ub2 : FVec F S64 .f32) : FVec F S100000x64 .f32 :=
  let v31 : FVec F S100000x128 .f32 := concatenate S100000x128 1 [⟨S100000x64, X⟩, ⟨S100000x64, AGG⟩] concatenates_S100000x64_S100000x64_S100000x128_d1
  let v32 : FVec F S100000x64 .f32 := Host.dotGeneral dot_S100000x128_S128x64_S100000x64_1_0_0_1_n_n none v31 U1
  let v34 : FVec F S100000x64 .f32 := broadcastInDim S100000x64 ![0, 1] bcast_S1x64_S100000x64_0_1 (broadcastInDim S1x64 ![1] bcast_S64_S1x64_1 ub1)
  let v35 : FVec F S100000x64 .f32 := addf v32 v34
  let v36 : FVec F S100000x64 .f32 := maximumf v35 (broadcastInDim S100000x64 ![] bcast_S_S100000x64 (constant S_ .f32 0x00000000#32))
  let v37 : FVec F S100000x64 .f32 := Host.dotGeneral dot_S100000x64_S64x64_S100000x64_1_0_0_1_n_n none v36 U2
  let v39 : FVec F S100000x64 .f32 := broadcastInDim S100000x64 ![0, 1] bcast_S1x64_S100000x64_0_1 (broadcastInDim S1x64 ![1] bcast_S64_S1x64_1 ub2)
  let v40 : FVec F S100000x64 .f32 := addf v37 v39
  let s0 : FVec F S100000x64 .f32 := Host.negf v40
  let s1 : FVec F S100000x64 .f32 := Host.exp s0
  let s2 : FVec F S100000x64 .f32 := broadcastInDim S100000x64 ![] bcast_S_S100000x64 (constant S_ .f32 0x3F800000#32)
  let s3 : FVec F S100000x64 .f32 := addf s2 s1
  let s4 : FVec F S100000x64 .f32 := broadcastInDim S100000x64 ![] bcast_S_S100000x64 (constant S_ .f32 0x3F800000#32)
  let s5 : FVec F S100000x64 .f32 := Host.divf s4 s3
  let v41 : FVec F S100000x64 .f32 := mulf v40 s5
  addf X v41

/-- The biased variance of each row as jnp computes it: the mean of squared deviations from the row mean, the divisor
    `64 − float(0)`, guarded by a test that the divisor is positive. -/
def refVar (H : FVec F S100000x64 .f32) : FVec F S100000x1 .f32 :=
  let r0 : FVec F S100000 .f32 := Host.reduceAdd H (constant S_ .f32 0x00000000#32) reducesTo_S100000x64_S100000_d1 h_S_
  let r1 : FVec F S100000x1 .f32 := broadcastInDim S100000x1 ![0] bcast_S100000_S100000x1_0 r0
  let r2 : FVec F S100000x1 .f32 := broadcastInDim S100000x1 ![] bcast_S_S100000x1 (constant S_ .f32 0x42800000#32)
  let r3 : FVec F S100000x1 .f32 := Host.divf r1 r2
  let r4 : FVec F S100000x64 .f32 := broadcastInDim S100000x64 ![0, 1] bcast_S100000x1_S100000x64_0_1 r3
  let r5 : FVec F S100000x64 .f32 := subf H r4
  let r6 : FVec F S100000x64 .f32 := mulf r5 r5
  let r7 : FVec F S_ .f32 := sitofp .f32 (constantI S_ 32 0#32)
  let r8 : FVec F S_ .f32 := subf (constant S_ .f32 0x42800000#32) r7
  let r9 : FVec F S100000 .f32 := Host.reduceAdd r6 (constant S_ .f32 0x00000000#32) reducesTo_S100000x64_S100000_d1 h_S_
  let r10 : FVec F S100000x1 .f32 := broadcastInDim S100000x1 ![0] bcast_S100000_S100000x1_0 r9
  let r11 : FVec F S100000x1 .f32 := broadcastInDim S100000x1 ![] bcast_S_S100000x1 r8
  let r12 : FVec F S100000x1 .f32 := Host.divf r10 r11
  let r13 : IVec S_ 1 := cmpf .ogt r8 (constant S_ .f32 0x00000000#32)
  let w1 : FVec F S100000x1 .f32 := broadcastInDim S100000x1 ![] bcast_S_S100000x1 (id (constant S_ .f32 0x7FC00000#32))
  select (broadcastInDim S100000x1 ![] bcast_S_S100000x1 r13) r12 w1

/-- The row normalisation: `(h − mean) · rsqrt(var + ε) · g + β`. -/
def refNorm (H : FVec F S100000x64 .f32) (g bt : FVec F S64 .f32) : FVec F S100000x64 .f32 :=
  let v43 : FVec F S100000 .f32 := Host.reduceAdd H (constant S_ .f32 0x00000000#32) reducesTo_S100000x64_S100000_d1 h_S_
  let v44 : FVec F S100000x1 .f32 := broadcastInDim S100000x1 ![0] bcast_S100000_S100000x1_0 v43
  let v45 : FVec F S100000x1 .f32 := broadcastInDim S100000x1 ![] bcast_S_S100000x1 (constant S_ .f32 0x42800000#32)
  let v46 : FVec F S100000x1 .f32 := Host.divf v44 v45
  let v47 : FVec F S100000x1 .f32 := refVar H
  let v48 : FVec F S100000x64 .f32 := broadcastInDim S100000x64 ![0, 1] bcast_S100000x1_S100000x64_0_1 v46
  let v49 : FVec F S100000x64 .f32 := subf H v48
  let v50 : FVec F S100000x1 .f32 := broadcastInDim S100000x1 ![] bcast_S_S100000x1 (constant S_ .f32 0x3727C5AC#32)
  let v51 : FVec F S100000x1 .f32 := addf v47 v50
  let v52 : FVec F S100000x1 .f32 := Host.rsqrt v51
  let v53 : FVec F S100000x64 .f32 := broadcastInDim S100000x64 ![0, 1] bcast_S100000x1_S100000x64_0_1 v52
  let v54 : FVec F S100000x64 .f32 := mulf v49 v53
  let v56 : FVec F S100000x64 .f32 := broadcastInDim S100000x64 ![0, 1] bcast_S1x64_S100000x64_0_1 (broadcastInDim S1x64 ![1] bcast_S64_S1x64_1 g)
  let v57 : FVec F S100000x64 .f32 := mulf v54 v56
  let v59 : FVec F S100000x64 .f32 := broadcastInDim S100000x64 ![0, 1] bcast_S1x64_S100000x64_0_1 (broadcastInDim S1x64 ![1] bcast_S64_S1x64_1 bt)
  addf v57 v59

/-- Row `r` of the endpoint array as a vector of edge endpoints. -/
def srcRow (EI : IVec S2x1600000 32) : IVec S1600000 32 :=
  shapeCast S1600000 (extractStridedSlice S1x1600000 ![0, 0] EI slices_S2x1600000_S1x1600000_0_0) shapeCasts_S1x1600000_S1600000
def dstRow (EI : IVec S2x1600000 32) : IVec S1600000 32 :=
  shapeCast S1600000 (extractStridedSlice S1x1600000 ![1, 0] EI slices_S2x1600000_S1x1600000_1_0) shapeCasts_S1x1600000_S1600000

/-- The aggregated messages: each edge's message added into its destination node's row of a zero array. -/
def refAgg (X : FVec F S100000x64 .f32) (EI : IVec S2x1600000 32) (EA : FVec F S1600000x32 .f32) (W1 : FVec F S160x64 .f32)
    (b1 : FVec F S64 .f32) (W2 : FVec F S64x64 .f32) (b2 : FVec F S64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dstRow EI))
    (refMsg (Host.gather gather_S100000x64_S1600000x1_S1600000x64_1_0_n_n_0_1_164 X (idxOf (srcRow EI)))
            (Host.gather gather_S100000x64_S1600000x1_S1600000x64_1_0_n_n_0_1_164 X (idxOf (dstRow EI))) EA W1 b1 W2 b2)

/-- The reference's result. -/
def refOut (X : FVec F S100000x64 .f32) (EI : IVec S2x1600000 32) (EA : FVec F S1600000x32 .f32) (W1 : FVec F S160x64 .f32)
    (b1 : FVec F S64 .f32) (W2 : FVec F S64x64 .f32) (b2 : FVec F S64 .f32) (U1 : FVec F S128x64 .f32) (ub1 : FVec F S64 .f32)
    (U2 : FVec F S64x64 .f32) (ub2 g bt : FVec F S64 .f32) : FVec F S100000x64 .f32 :=
  refNorm (refRes X (refAgg X EI EA W1 b1 W2 b2) U1 ub1 U2 ub2) g bt

end Cert.ReferenceIdeal.Term

end
-- ==== Proof.RefRun.lean ====
/-
  The reference program's run: its host operations as one list, @main as that list run in order, and every weakly fair
  execution ending with the result array at the operations' composed function of the argument arrays, the arguments unchanged.
-/
import proofs.«410363_j75831942578740_1_alg».proof.Proof.Gen.ReferenceIdeal
import proofs.«410363_j75831942578740_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The endpoint rows, their gather indices and the two gathered row arrays. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_1 (constantI S_ 32 0#32),
    StableHlo.unary main_c_1 main_v11 (broadcastInDim S1600000 ![] bcast_S_S1600000 : (⟨S_, .i32⟩ : BufTy).Contents (Elt F) → (⟨S1600000, .i32⟩ : BufTy).Contents (Elt F)),
    StableHlo.binary main_v3 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v13 (broadcastInDim S1600000 ![] bcast_S_S1600000 : (⟨S_, .i32⟩ : BufTy).Contents (Elt F) → (⟨S1600000, .i32⟩ : BufTy).Contents (Elt F)),
    StableHlo.binary main_v3 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.binary main_arg0 main_v16 main_v17 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

/-- The message layer over the concatenated edge inputs and its scatter into a zero array. -/
abbrev opsB : List (HloOp τ sig (Elt F)) :=
  [ StableHlo.nary ![main_v10, main_v17, main_arg2] main_v18 (fun u => concatenate S1600000x160 1 [⟨S1600000x64, u 0⟩, ⟨S1600000x64, u 1⟩, ⟨S1600000x32, u 2⟩] concatenates_S1600000x64_S1600000x64_S1600000x32_S1600000x160_d1),
    StableHlo.binary main_v18 main_arg3 main_v19 ((fun l r => Host.dotGeneral dot_S1600000x160_S160x64_S1600000x64_1_0_0_1_n_n none l r) : (⟨S1600000x160, .f32⟩ : BufTy).Contents (Elt F) → (⟨S160x64, .f32⟩ : BufTy).Contents (Elt F) → (⟨S1600000x64, .f32⟩ : BufTy).Contents (Elt F)),
    StableHlo.unary main_arg4 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S1600000x64 ![0, 1] bcast_S1x64_S1600000x64_0_1 : (⟨S1x64, .f32⟩ : BufTy).Contents (Elt F) → (⟨S1600000x64, .f32⟩ : BufTy).Contents (Elt F)),
    StableHlo.binary main_v19 main_v21 main_v22 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v22) main_call0.v0 main_call0.v1 maximumf,
    StableHlo.binary main_v23 main_arg5 main_v24 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S1600000x64 ![0, 1] bcast_S1x64_S1600000x64_0_1 : (⟨S1x64, .f32⟩ : BufTy).Contents (Elt F) → (⟨S1600000x64, .f32⟩ : BufTy).Contents (Elt F)),
    StableHlo.binary main_v24 main_v26 main_v27 (addf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v28 (broadcastInDim S100000x64 ![] bcast_S_S100000x64 : (⟨S_, .f32⟩ : BufTy).Contents (Elt F) → (⟨S100000x64, .f32⟩ : BufTy).Contents (Elt F)),
    StableHlo.unary main_v3 main_v29 (broadcastInDim S1600000x1 ![0] bcast_S1600000_S1600000x1_0 : (⟨S1600000, .i32⟩ : BufTy).Contents (Elt F) → (⟨S1600000x1, .i32⟩ : BufTy).Contents (Elt F)),
    StableHlo.ternary main_v28 main_v29 main_v27 main_v30 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The update layer over the concatenated node inputs and the residual sum. -/
abbrev opsC : List (HloOp τ sig (Elt F)) :=
  [ StableHlo.binary main_arg0 main_v30 main_v31 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v31 main_arg7 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v35) main_call1.v0 main_call1.v1 maximumf,
    StableHlo.binary main_v36 main_arg9 main_v37 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v39 main_v40 (addf : (⟨S100000x64, .f32⟩ : BufTy).Contents (Elt F) → (⟨S100000x64, .f32⟩ : BufTy).Contents (Elt F) → (⟨S100000x64, .f32⟩ : BufTy).Contents (Elt F)),
    StableHlo.TRef.unary (.of main_v40) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S100000x64 ![] bcast_S_S100000x64),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S100000x64 ![] bcast_S_S100000x64),
    StableHlo.TRef.binary main_call2.v4 main_call2.v3 main_call2.v5 Host.divf,
    StableHlo.TRef.binary (.of main_v40) main_call2.v5 main_call2.v6 mulf,
    StableHlo.binary main_arg0 main_v41 main_v42 (addf : (⟨S100000x64, .f32⟩ : BufTy).Contents (Elt F) → (⟨S100000x64, .f32⟩ : BufTy).Contents (Elt F) → (⟨S100000x64, .f32⟩ : BufTy).Contents (Elt F)) ]

/-- The row mean, the row variance and the normalisation. -/
abbrev opsD : List (HloOp τ sig (Elt F)) :=
  [ StableHlo.nullary main_cst_3 (constant S_ .f32 0x00000000#32),
    StableHlo.binary main_v42 main_cst_3 main_v43 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v43 main_v44 (broadcastInDim S100000x1 ![0] bcast_S100000_S100000x1_0 : (⟨S100000, .f32⟩ : BufTy).Contents (Elt F) → (⟨S100000x1, .f32⟩ : BufTy).Contents (Elt F)),
    StableHlo.nullary main_cst_4 (constant S_ .f32 0x42800000#32),
    StableHlo.unary main_cst_4 main_v45 (broadcastInDim S100000x1 ![] bcast_S_S100000x1 : (⟨S_, .f32⟩ : BufTy).Contents (Elt F) → (⟨S100000x1, .f32⟩ : BufTy).Contents (Elt F)),
    StableHlo.binary main_v44 main_v45 main_v46 (Host.divf : (⟨S100000x1, .f32⟩ : BufTy).Contents (Elt F) → (⟨S100000x1, .f32⟩ : BufTy).Contents (Elt F) → (⟨S100000x1, .f32⟩ : BufTy).Contents (Elt F)),
    StableHlo.nullary main_c_5 (constantI S_ 32 0#32),
    StableHlo.TRef.nullary main_call3.cst (constant S_ .f32 0x00000000#32),
    StableHlo.TRef.binary (.of main_v42) main_call3.cst main_call3.v0 (fun x v => Host.reduceAdd x v reducesTo_S100000x64_S100000_d1 h_S_),
    StableHlo.TRef.unary main_call3.v0 main_call3.v1 (broadcastInDim S100000x1 ![0] bcast_S100000_S100000x1_0),
    StableHlo.TRef.nullary main_call3.cst_0 (constant S_ .f32 0x42800000#32),
    StableHlo.TRef.unary main_call3.cst_0 main_call3.v2 (broadcastInDim S100000x1 ![] bcast_S_S100000x1),
    StableHlo.TRef.binary main_call3.v1 main_call3.v2 main_call3.v3 Host.divf,
    StableHlo.TRef.unary main_call3.v3 main_call3.v4 (broadcastInDim S100000x64 ![0, 1] bcast_S100000x1_S100000x64_0_1),
    StableHlo.TRef.binary (.of main_v42) main_call3.v4 main_call3.v5 subf,
    StableHlo.TRef.binary main_call3.v5 main_call3.v5 main_call3.v6 mulf,
    StableHlo.TRef.unary (.of main_c_5) main_call3.v7 (sitofp .f32),
    StableHlo.TRef.nullary main_call3.cst_1 (constant S_ .f32 0x42800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S100000_d1 h_S_),
    StableHlo.TRef.unary main_call3.v9 main_call3.v10 (broadcastInDim S100000x1 ![0] bcast_S100000_S100000x1_0),
    StableHlo.TRef.unary main_call3.v8 main_call3.v11 (broadcastInDim S100000x1 ![] bcast_S_S100000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S100000x1 ![] bcast_S_S100000x1),
    StableHlo.TRef.ternary main_call3.v13 main_call3.v12 main_call3.call0.v1 main_call3.call0.v2 (fun p a b => select (broadcastInDim S100000x1 ![] bcast_S_S100000x1 p) a b),
    StableHlo.unary main_v46 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v42 main_v48 main_v49 (subf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3727C5AC#32),
    StableHlo.unary main_cst_6 main_v50 (broadcastInDim S100000x1 ![] bcast_S_S100000x1 : (⟨S_, .f32⟩ : BufTy).Contents (Elt F) → (⟨S100000x1, .f32⟩ : BufTy).Contents (Elt F)),
    StableHlo.binary main_v47 main_v50 main_v51 (addf : (⟨S100000x1, .f32⟩ : BufTy).Contents (Elt F) → (⟨S100000x1, .f32⟩ : BufTy).Contents (Elt F) → (⟨S100000x1, .f32⟩ : BufTy).Contents (Elt F)),
    StableHlo.unary main_v51 main_v52 (Host.rsqrt : (⟨S100000x1, .f32⟩ : BufTy).Contents (Elt F) → (⟨S100000x1, .f32⟩ : BufTy).Contents (Elt F)),
    StableHlo.unary main_v52 main_v53 (broadcastInDim S100000x64 ![0, 1] bcast_S100000x1_S100000x64_0_1 : (⟨S100000x1, .f32⟩ : BufTy).Contents (Elt F) → (⟨S100000x64, .f32⟩ : BufTy).Contents (Elt F)),
    StableHlo.binary main_v49 main_v53 main_v54 (mulf : (⟨S100000x64, .f32⟩ : BufTy).Contents (Elt F) → (⟨S100000x64, .f32⟩ : BufTy).Contents (Elt F) → (⟨S100000x64, .f32⟩ : BufTy).Contents (Elt F)),
    StableHlo.unary main_arg11 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (mulf : (⟨S100000x64, .f32⟩ : BufTy).Contents (Elt F) → (⟨S100000x64, .f32⟩ : BufTy).Contents (Elt F) → (⟨S100000x64, .f32⟩ : BufTy).Contents (Elt F)),
    StableHlo.unary main_arg12 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)) ]

/-- @main's 104 operations, in order: four stretches, cut before each concatenate and after the residual sum. -/
abbrev ops : List (HloOp τ sig (Elt F)) := opsA ++ (opsB ++ (opsC ++ opsD))

/-- The fold over two lines run one after the other is the fold over the second from the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 4096 in
set_option maxHeartbeats 4000000 in
/-- @main is that straight line: the functions' bodies unfolded at their calls, sequencing reassociated. -/
theorem main_eq (c : Dev nD) : main (F := F) c = seq ops := by
  simp only [main, main_part0, main_part1, fn_relu.body, fn_relu_0.body, fn_silu.body, fn_var.body, fn_where.body, ops, opsA, opsB, opsC, opsD,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub .., nullary_bufs_sub .., unary_bufs_sub .., binary_bufs_sub .., ternary_bufs_sub ..,
    unary_bufs_sub .., binary_bufs_sub ..⟩
theorem opsB_sub : (opsB : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub ..,
    unary_bufs_sub .., binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub ..,
    unary_bufs_sub .., binary_bufs_sub .., unary_bufs_sub .., unary_bufs_sub .., nullary_bufs_sub .., unary_bufs_sub .., binary_bufs_sub .., nullary_bufs_sub .., unary_bufs_sub .., binary_bufs_sub ..,
    binary_bufs_sub .., binary_bufs_sub ..⟩
theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub .., unary_bufs_sub .., binary_bufs_sub .., unary_bufs_sub .., unary_bufs_sub ..,
    binary_bufs_sub .., unary_bufs_sub .., unary_bufs_sub .., binary_bufs_sub ..⟩
theorem ops_sub : (ops : List (HloOp τ sig (Elt F))).Forall fun op => op.bufs ⊆ tcRefs τ sig :=
  List.forall_append.2 ⟨opsA_sub, List.forall_append.2 ⟨opsB_sub, List.forall_append.2 ⟨opsC_sub, opsD_sub⟩⟩⟩

theorem opsA_fresh : ∀ op ∈ (opsA : List (HloOp τ sig (Elt F))), op.fresh = ∅ := by intro _ h; (repeat (cases h with | head => rfl | tail _ h => ?_)); exact nomatch h
theorem opsB_fresh : ∀ op ∈ (opsB : List (HloOp τ sig (Elt F))), op.fresh = ∅ := by intro _ h; (repeat (cases h with | head => rfl | tail _ h => ?_)); exact nomatch h
theorem opsC_fresh : ∀ op ∈ (opsC : List (HloOp τ sig (Elt F))), op.fresh = ∅ := by intro _ h; (repeat (cases h with | head => rfl | tail _ h => ?_)); exact nomatch h
theorem opsD_fresh : ∀ op ∈ (opsD : List (HloOp τ sig (Elt F))), op.fresh = ∅ := by intro _ h; (repeat (cases h with | head => rfl | tail _ h => ?_)); exact nomatch h
theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  · exact opsD_fresh op h

section Stages

attribute [local irreducible] Host.reduceAdd Host.gather Host.scatterAdd concatenate

/-- After the first stretch: the two gathered row arrays and the destination row. -/
theorem A_v10 (V : Valuation τ sig (Elt F)) : after opsA V (main_v10 : DevRef τ sig)
    = Host.gather gather_S100000x64_S1600000x1_S1600000x64_1_0_n_n_0_1_164 (V (main_arg0 : DevRef τ sig)) (Term.idxOf (Term.srcRow (V (main_arg1 : DevRef τ sig)))) := by
  simp only [after_cons, after_nil]; rfl
theorem A_v17 (V : Valuation τ sig (Elt F)) : after opsA V (main_v17 : DevRef τ sig)
    = Host.gather gather_S100000x64_S1600000x1_S1600000x64_1_0_n_n_0_1_164 (V (main_arg0 : DevRef τ sig)) (Term.idxOf (Term.dstRow (V (main_arg1 : DevRef τ sig)))) := by
  simp only [after_cons, after_nil]; rfl
theorem A_v3 (V : Valuation τ sig (Elt F)) : after opsA V (main_v3 : DevRef τ sig) = Term.dstRow (V (main_arg1 : DevRef τ sig)) := by
  simp only [after_cons, after_nil]; rfl

/-- After the second stretch: the messages scattered into a zero array. -/
theorem B_v30 (V : Valuation τ sig (Elt F)) : after opsB V (main_v30 : DevRef τ sig)
    = Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (V (main_v3 : DevRef τ sig)))
        (Term.refMsg (V (main_v10 : DevRef τ sig)) (V (main_v17 : DevRef τ sig)) (V (main_arg2 : DevRef τ sig)) (V (main_arg3 : DevRef τ sig)) (V (main_arg4 : DevRef τ sig)) (V (main_arg5 : DevRef τ sig)) (V (main_arg6 : DevRef τ sig))) := by
  simp only [after_cons, after_nil]; rfl

/-- After the third stretch: the residual rows. -/
theorem C_v42 (V : Valuation τ sig (Elt F)) : after opsC V (main_v42 : DevRef τ sig)
    = Term.refRes (V (main_arg0 : DevRef τ sig)) (V (main_v30 : DevRef τ sig)) (V (main_arg7 : DevRef τ sig)) (V (main_arg8 : DevRef τ sig)) (V (main_arg9 : DevRef τ sig)) (V (main_arg10 : DevRef τ sig)) := by
  simp only [after_cons, after_nil]; rfl

set_option maxRecDepth 8192 in
/-- After the last stretch: the normalised rows. -/
theorem D_v60 (V : Valuation τ sig (Elt F)) : after opsD V (main_v60 : DevRef τ sig)
    = Term.refNorm (V (main_v42 : DevRef τ sig)) (V (main_arg11 : DevRef τ sig)) (V (main_arg12 : DevRef τ sig)) := by
  simp only [after_cons, after_nil]; rfl

set_option maxRecDepth 8192 in
/-- The result buffer after the whole line. -/
theorem out_eq (V : Valuation τ sig (Elt F)) : after ops V (main_v60 : DevRef τ sig)
    = Term.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  simp only [ops, after_app]
  rw [D_v60, C_v42, B_v30, A_v10, A_v17, A_v3]
  rfl

end Stages

/-- No operation writes an argument's buffer. -/
theorem arg0_eq (V : Valuation τ sig (Elt F)) : after ops V (main_arg0 : DevRef τ sig) = V (main_arg0 : DevRef τ sig) := rfl
theorem arg1_eq (V : Valuation τ sig (Elt F)) : after ops V (main_arg1 : DevRef τ sig) = V (main_arg1 : DevRef τ sig) := rfl
theorem arg2_eq (V : Valuation τ sig (Elt F)) : after ops V (main_arg2 : DevRef τ sig) = V (main_arg2 : DevRef τ sig) := rfl
theorem arg3_eq (V : Valuation τ sig (Elt F)) : after ops V (main_arg3 : DevRef τ sig) = V (main_arg3 : DevRef τ sig) := rfl
theorem arg4_eq (V : Valuation τ sig (Elt F)) : after ops V (main_arg4 : DevRef τ sig) = V (main_arg4 : DevRef τ sig) := rfl
theorem arg5_eq (V : Valuation τ sig (Elt F)) : after ops V (main_arg5 : DevRef τ sig) = V (main_arg5 : DevRef τ sig) := rfl
theorem arg6_eq (V : Valuation τ sig (Elt F)) : after ops V (main_arg6 : DevRef τ sig) = V (main_arg6 : DevRef τ sig) := rfl
theorem arg7_eq (V : Valuation τ sig (Elt F)) : after ops V (main_arg7 : DevRef τ sig) = V (main_arg7 : DevRef τ sig) := rfl
theorem arg8_eq (V : Valuation τ sig (Elt F)) : after ops V (main_arg8 : DevRef τ sig) = V (main_arg8 : DevRef τ sig) := rfl
theorem arg9_eq (V : Valuation τ sig (Elt F)) : after ops V (main_arg9 : DevRef τ sig) = V (main_arg9 : DevRef τ sig) := rfl
theorem arg10_eq (V : Valuation τ sig (Elt F)) : after ops V (main_arg10 : DevRef τ sig) = V (main_arg10 : DevRef τ sig) := rfl
theorem arg11_eq (V : Valuation τ sig (Elt F)) : after ops V (main_arg11 : DevRef τ sig) = V (main_arg11 : DevRef τ sig) := rfl
theorem arg12_eq (V : Valuation τ sig (Elt F)) : after ops V (main_arg12 : DevRef τ sig) = V (main_arg12 : DevRef τ sig) := rfl

set_option maxHeartbeats 4000000 in
/-- On every device, from any memory with zero counters: every weakly fair execution of @main terminates with the result
    array at `Term.refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
          = Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v60).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ (fun _ => ops_fresh))

end Cert.ReferenceIdeal.Run

end
-- ==== Proof.RefMsgValue.lean ====
/-
  The reference's message layer read index by index over the extended reals: the product of the concatenated edge inputs
  with the 160-row weight matrix is the sum of the three products with its row blocks 0–63, 64–127 and 128–159.
-/
import proofs.«410363_j75831942578740_1_alg».proof.Proof.RefTerm
import proofs.«410363_j75831942578740_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.MsgValue

open Cert.ReferenceIdeal Cert.ReferenceIdeal.Gen Idealize.ShloMosaic Idealize.ShloMosaic.ValueIdx
open scoped BigOperators

/-! ### A sum over 160 positions is the sum over the first 64, the next 64 and the last 32 -/

theorem sum_split160 {M : Type*} [AddCommMonoid M] (f : Fin 160 → M) :
    ∑ k : Fin 160, f k
      = ((∑ i : Fin 64, f ⟨0 + i.val, by omega⟩) + ∑ i : Fin 64, f ⟨64 + i.val, by omega⟩)
          + ∑ i : Fin 32, f ⟨128 + i.val, by omega⟩ := by
  have h1 : ∑ k : Fin 160, f k
      = (∑ i : Fin 128, f (Fin.castAdd 32 i)) + ∑ i : Fin 32, f (Fin.natAdd 128 i) :=
    Fin.sum_univ_add (M := M) (a := 128) (b := 32) f
  have h2 : ∑ i : Fin 128, f (Fin.castAdd 32 i)
      = (∑ i : Fin 64, f (Fin.castAdd 32 (Fin.castAdd 64 i))) + ∑ i : Fin 64, f (Fin.castAdd 32 (Fin.natAdd 64 i)) :=
    Fin.sum_univ_add (M := M) (a := 64) (b := 64) fun i => f (Fin.castAdd 32 i)
  rw [h1, h2]
  refine congrArg₂ (· + ·) (congrArg₂ (· + ·) ?_ ?_) ?_
  · exact Finset.sum_congr rfl fun i _ => congrArg f (Fin.ext (Nat.zero_add _).symm)
  · exact Finset.sum_congr rfl fun i _ => congrArg f (Fin.ext rfl)
  · exact Finset.sum_congr rfl fun i _ => congrArg f (Fin.ext rfl)

/-! ### The two contractions' operand indices, coordinate by coordinate -/

theorem lhs160_0 (j : S1600000x64.Idx) (k : dot_S1600000x160_S160x64_S1600000x64_1_0_0_1_n_n.contr.Idx) :
    (dot_S1600000x160_S160x64_S1600000x64_1_0_0_1_n_n.lhsIdx j k 0 : ℕ) = j 0 := by
  simp [DotDims.lhsIdx, dot_S1600000x160_S160x64_S1600000x64_1_0_0_1_n_n]; rfl
theorem lhs160_1 (j : S1600000x64.Idx) (k : dot_S1600000x160_S160x64_S1600000x64_1_0_0_1_n_n.contr.Idx) :
    (dot_S1600000x160_S160x64_S1600000x64_1_0_0_1_n_n.lhsIdx j k 1 : ℕ) = k ⟨0, by decide⟩ := by
  simp [DotDims.lhsIdx, dot_S1600000x160_S160x64_S1600000x64_1_0_0_1_n_n]; rfl
theorem rhs160_0 (j : S1600000x64.Idx) (k : dot_S1600000x160_S160x64_S1600000x64_1_0_0_1_n_n.contr.Idx) :
    (dot_S1600000x160_S160x64_S1600000x64_1_0_0_1_n_n.rhsIdx j k 0 : ℕ) = k ⟨0, by decide⟩ := by
  simp [DotDims.rhsIdx, dot_S1600000x160_S160x64_S1600000x64_1_0_0_1_n_n]; rfl
theorem rhs160_1 (j : S1600000x64.Idx) (k : dot_S1600000x160_S160x64_S1600000x64_1_0_0_1_n_n.contr.Idx) :
    (dot_S1600000x160_S160x64_S1600000x64_1_0_0_1_n_n.rhsIdx j k 1 : ℕ) = j 1 := by
  simp [DotDims.rhsIdx, dot_S1600000x160_S160x64_S1600000x64_1_0_0_1_n_n]; rfl

theorem lhs64_0 (j : S1600000x64.Idx) (k : dot_S1600000x64_S64x64_S1600000x64_1_0_0_1_n_n.contr.Idx) :
    (dot_S1600000x64_S64x64_S1600000x64_1_0_0_1_n_n.lhsIdx j k 0 : ℕ) = j 0 := by
  simp [DotDims.lhsIdx, dot_S1600000x64_S64x64_S1600000x64_1_0_0_1_n_n]; rfl
theorem lhs64_1 (j : S1600000x64.Idx) (k : dot_S1600000x64_S64x64_S1600000x64_1_0_0_1_n_n.contr.Idx) :
    (dot_S1600000x64_S64x64_S1600000x64_1_0_0_1_n_n.lhsIdx j k 1 : ℕ) = k ⟨0, by decide⟩ := by
  simp [DotDims.lhsIdx, dot_S1600000x64_S64x64_S1600000x64_1_0_0_1_n_n]; rfl
theorem rhs64_0 (j : S1600000x64.Idx) (k : dot_S1600000x64_S64x64_S1600000x64_1_0_0_1_n_n.contr.Idx) :
    (dot_S1600000x64_S64x64_S1600000x64_1_0_0_1_n_n.rhsIdx j k 0 : ℕ) = k ⟨0, by decide⟩ := by
  simp [DotDims.rhsIdx, dot_S1600000x64_S64x64_S1600000x64_1_0_0_1_n_n]; rfl
theorem rhs64_1 (j : S1600000x64.Idx) (k : dot_S1600000x64_S64x64_S1600000x64_1_0_0_1_n_n.contr.Idx) :
    (dot_S1600000x64_S64x64_S1600000x64_1_0_0_1_n_n.rhsIdx j k 1 : ℕ) = j 1 := by
  simp [DotDims.rhsIdx, dot_S1600000x64_S64x64_S1600000x64_1_0_0_1_n_n]; rfl

/-! ### The two products read at an index: row of the left operand times column of the right -/

theorem dot160_apply (L : FVec Ideal S1600000x160 .f32) (R : FVec Ideal S160x64 .f32) (e : Fin 1600000) (c : Fin 64) :
    Host.dotGeneral (F := Ideal) dot_S1600000x160_S160x64_S1600000x64_1_0_0_1_n_n none L R (ix2 e c)
      = ∑ k : Fin 160, L (ix2 e k) * R (ix2 k c) := by
  simp only [Host.dotGeneral]
  rw [Ideal.dotGeneral_apply,
    ← Equiv.sum_comp (contrEquiv1 dot_S1600000x160_S160x64_S1600000x64_1_0_0_1_n_n 160 rfl rfl).symm]
  refine Finset.sum_congr rfl fun k _ => ?_
  have hl : dot_S1600000x160_S160x64_S1600000x64_1_0_0_1_n_n.lhsIdx (ix2 e c)
      ((contrEquiv1 dot_S1600000x160_S160x64_S1600000x64_1_0_0_1_n_n 160 rfl rfl).symm k) = ix2 e k := by
    funext a; refine Fin.ext ?_
    match a with
    | ⟨0, _⟩ => exact lhs160_0 _ _
    | ⟨1, _⟩ => exact (lhs160_1 _ _).trans (contrEquiv1_symm_val _ _ _ _ k)
  have hr : dot_S1600000x160_S160x64_S1600000x64_1_0_0_1_n_n.rhsIdx (ix2 e c)
      ((contrEquiv1 dot_S1600000x160_S160x64_S1600000x64_1_0_0_1_n_n 160 rfl rfl).symm k) = ix2 k c := by
    funext a; refine Fin.ext ?_
    match a with
    | ⟨0, _⟩ => exact (rhs160_0 _ _).trans (contrEquiv1_symm_val _ _ _ _ k)
    | ⟨1, _⟩ => exact rhs160_1 _ _
  rw [hl, hr]

theorem dot64_apply (L : FVec Ideal S1600000x64 .f32) (R : FVec Ideal S64x64 .f32) (e : Fin 1600000) (c : Fin 64) :
    Host.dotGeneral (F := Ideal) dot_S1600000x64_S64x64_S1600000x64_1_0_0_1_n_n none L R (ix2 e c)
      = ∑ k : Fin 64, L (ix2 e k) * R (ix2 k c) := by
  simp only [Host.dotGeneral]
  rw [Ideal.dotGeneral_apply,
    ← Equiv.sum_comp (contrEquiv1 dot_S1600000x64_S64x64_S1600000x64_1_0_0_1_n_n 64 rfl rfl).symm]
  refine Finset.sum_congr rfl fun k _ => ?_
  have hl : dot_S1600000x64_S64x64_S1600000x64_1_0_0_1_n_n.lhsIdx (ix2 e c)
      ((contrEquiv1 dot_S1600000x64_S64x64_S1600000x64_1_0_0_1_n_n 64 rfl rfl).symm k) = ix2 e k := by
    funext a; refine Fin.ext ?_
    match a with
    | ⟨0, _⟩ => exact lhs64_0 _ _
    | ⟨1, _⟩ => exact (lhs64_1 _ _).trans (contrEquiv1_symm_val _ _ _ _ k)
  have hr : dot_S1600000x64_S64x64_S1600000x64_1_0_0_1_n_n.rhsIdx (ix2 e c)
      ((contrEquiv1 dot_S1600000x64_S64x64_S1600000x64_1_0_0_1_n_n 64 rfl rfl).symm k) = ix2 k c := by
    funext a; refine Fin.ext ?_
    match a with
    | ⟨0, _⟩ => exact (rhs64_0 _ _).trans (contrEquiv1_symm_val _ _ _ _ k)
    | ⟨1, _⟩ => exact rhs64_1 _ _
  rw [hl, hr]

/-! ### The concatenated edge inputs read at a column of each of the three pieces -/

theorem cat_src (XS XD : FVec Ideal S1600000x64 .f32) (EA : FVec Ideal S1600000x32 .f32) (e : Fin 1600000) (i : Fin 64) :
    concatenate S1600000x160 1 [⟨S1600000x64, XS⟩, ⟨S1600000x64, XD⟩, ⟨S1600000x32, EA⟩]
        concatenates_S1600000x64_S1600000x64_S1600000x32_S1600000x160_d1 (ix2 e (⟨0 + i.val, by omega⟩ : Fin 160))
      = XS (ix2 e i) := by
  refine concatenate_apply_piece (1 : Fin S1600000x160.rank) _ _ _ 0 (by simp) S1600000x64 XS rfl rfl 0 rfl (ix2 e i) ?_ rfl
  intro b hb
  match b with
  | ⟨0, _⟩ => rfl
  | ⟨1, _⟩ => exact absurd rfl hb

theorem cat_dst (XS XD : FVec Ideal S1600000x64 .f32) (EA : FVec Ideal S1600000x32 .f32) (e : Fin 1600000) (i : Fin 64) :
    concatenate S1600000x160 1 [⟨S1600000x64, XS⟩, ⟨S1600000x64, XD⟩, ⟨S1600000x32, EA⟩]
        concatenates_S1600000x64_S1600000x64_S1600000x32_S1600000x160_d1 (ix2 e (⟨64 + i.val, by omega⟩ : Fin 160))
      = XD (ix2 e i) := by
  refine concatenate_apply_piece (1 : Fin S1600000x160.rank) _ _ _ 1 (by simp) S1600000x64 XD rfl rfl 64 rfl (ix2 e i) ?_ rfl
  intro b hb
  match b with
  | ⟨0, _⟩ => rfl
  | ⟨1, _⟩ => exact absurd rfl hb

theorem cat_attr (XS XD : FVec Ideal S1600000x64 .f32) (EA : FVec Ideal S1600000x32 .f32) (e : Fin 1600000) (i : Fin 32) :
    concatenate S1600000x160 1 [⟨S1600000x64, XS⟩, ⟨S1600000x64, XD⟩, ⟨S1600000x32, EA⟩]
        concatenates_S1600000x64_S1600000x64_S1600000x32_S1600000x160_d1 (ix2 e (⟨128 + i.val, by omega⟩ : Fin 160))
      = EA (ix2 e i) := by
  refine concatenate_apply_piece (1 : Fin S1600000x160.rank) _ _ _ 2 (by simp) S1600000x32 EA rfl rfl 128 rfl (ix2 e i) ?_ rfl
  intro b hb
  match b with
  | ⟨0, _⟩ => rfl
  | ⟨1, _⟩ => exact absurd rfl hb

/-! ### A bias vector broadcast down the rows, and the rectifier's zero, read at an index -/

theorem bias_apply (b : FVec Ideal S64 .f32) (e : Fin 1600000) (c : Fin 64) :
    broadcastInDim S1600000x64 ![0, 1] bcast_S1x64_S1600000x64_0_1 (broadcastInDim S1x64 ![1] bcast_S64_S1x64_1 b) (ix2 e c)
      = b (ix1 c) := by
  have h1 : broadcastInDim S1600000x64 ![0, 1] bcast_S1x64_S1600000x64_0_1 (broadcastInDim S1x64 ![1] bcast_S64_S1x64_1 b) (ix2 e c)
      = broadcastInDim S1x64 ![1] bcast_S64_S1x64_1 b (ix2 (0 : Fin 1) c) := by
    refine broadcastInDim_apply ![0, 1] bcast_S1x64_S1600000x64_0_1 _ (ix2 e c) (ix2 (0 : Fin 1) c) ?_
    intro a
    match a with
    | ⟨0, _⟩ =>
      show (0 : ℕ) = if (1 : ℕ) = 1 then 0 else e.val
      rw [if_pos rfl]
    | ⟨1, _⟩ =>
      show c.val = if (64 : ℕ) = 1 then 0 else c.val
      rw [if_neg (by decide)]
  rw [h1]
  refine broadcastInDim_apply ![1] bcast_S64_S1x64_1 b (ix2 (0 : Fin 1) c) (ix1 c) ?_
  intro a
  match a with
  | ⟨0, _⟩ =>
    show c.val = if (64 : ℕ) = 1 then 0 else c.val
    rw [if_neg (by decide)]

theorem zero_apply (j : S1600000x64.Idx) :
    broadcastInDim S1600000x64 ![] bcast_S_S1600000x64 (constant (F := Ideal) S_ .f32 0x00000000#32) j = 0 := by
  rw [broadcastInDim_scalar_apply, constant_apply, Ideal.ofBits_zero_f32]

/-! ### The message layer at an index -/

/-- The first layer before the rectifier, at edge `e` and hidden unit `k`: the 160-term product splits by row block. -/
theorem hid_apply (XS XD : FVec Ideal S1600000x64 .f32) (EA : FVec Ideal S1600000x32 .f32) (W1 : FVec Ideal S160x64 .f32)
    (b1 : FVec Ideal S64 .f32) (e : Fin 1600000) (k : Fin 64) :
    addf (Host.dotGeneral (F := Ideal) dot_S1600000x160_S160x64_S1600000x64_1_0_0_1_n_n none
          (concatenate S1600000x160 1 [⟨S1600000x64, XS⟩, ⟨S1600000x64, XD⟩, ⟨S1600000x32, EA⟩]
            concatenates_S1600000x64_S1600000x64_S1600000x32_S1600000x160_d1) W1)
        (broadcastInDim S1600000x64 ![0, 1] bcast_S1x64_S1600000x64_0_1 (broadcastInDim S1x64 ![1] bcast_S64_S1x64_1 b1))
        (ix2 e k)
      = Cert.Spec.msgHid XS XD EA (Cert.Spec.rowsFrom 64 0 (by decide) W1) (Cert.Spec.rowsFrom 64 64 (by decide) W1)
          (Cert.Spec.rowsFrom 32 128 (by decide) W1) b1 e k := by
  rw [addf_apply, dot160_apply, bias_apply, sum_split160]
  unfold Cert.Spec.msgHid
  refine congrArg (· + b1 (ix1 k)) (congrArg₂ (· + ·) (congrArg₂ (· + ·) ?_ ?_) ?_)
  · exact Finset.sum_congr rfl fun i _ => congrArg (· * _) (cat_src XS XD EA e i)
  · exact Finset.sum_congr rfl fun i _ => congrArg (· * _) (cat_dst XS XD EA e i)
  · exact Finset.sum_congr rfl fun i _ => congrArg (· * _) (cat_attr XS XD EA e i)

theorem refMsg_eq (XS XD : FVec Ideal S1600000x64 .f32) (EA : FVec Ideal S1600000x32 .f32) (W1 : FVec Ideal S160x64 .f32)
    (b1 : FVec Ideal S64 .f32) (W2 : FVec Ideal S64x64 .f32) (b2 : FVec Ideal S64 .f32) :
    Term.refMsg (F := Ideal) XS XD EA W1 b1 W2 b2
      = Cert.Spec.msgK XS XD EA (Cert.Spec.rowsFrom 64 0 (by decide) W1) (Cert.Spec.rowsFrom 64 64 (by decide) W1)
          (Cert.Spec.rowsFrom 32 128 (by decide) W1) b1 W2 b2 := by
  funext j
  obtain ⟨e, c, rfl⟩ : ∃ (e : Fin 1600000) (c : Fin 64), j = ix2 e c := ⟨j 0, j 1, eq_ix2 j⟩
  unfold Term.refMsg
  refine (addf_apply _ _ _).trans ?_
  rw [dot64_apply, bias_apply]
  show (_ : EReal) = Cert.Spec.msgAt XS XD EA _ _ _ b1 W2 b2 e c
  unfold Cert.Spec.msgAt
  refine congrArg (· + b2 (ix1 c)) (Finset.sum_congr rfl fun k _ => ?_)
  rw [maximumf_apply, zero_apply, hid_apply]

end Cert.ReferenceIdeal.MsgValue

end
-- ==== Proof.RefUpdValue.lean ====
/-
  The reference's update layer, residual and row normalisation read index by index over the extended reals: the product of
  the concatenated node inputs with the 128-row weight matrix is the sum of the two products with its row blocks; jax's
  expansion of the logistic function is the logistic function; and jnp's variance (divisor `64 − float(0)`, guarded by a
  test that it is positive) is the mean of the squared deviations.
-/
import proofs.«410363_j75831942578740_1_alg».proof.Proof.RefTerm
import proofs.«410363_j75831942578740_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.UpdValue

open Cert.ReferenceIdeal Cert.ReferenceIdeal.Gen Idealize.ShloMosaic Idealize.ShloMosaic.ValueIdx
open scoped BigOperators

/-- The product of an m×k by a k×n matrix read at an index: the sum over the contracted coordinate. -/
theorem dot_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem dot128_apply (V : FVec Ideal S100000x128 .f32) (U : FVec Ideal S128x64 .f32) (n : Fin 100000) (i : Fin 64) :
    Host.dotGeneral (F := Ideal) dot_S100000x128_S128x64_S100000x64_1_0_0_1_n_n none V U (ix2 n i)
      = ∑ c : Fin 128, V (ix2 n c) * U (ix2 c i) :=
  dot_apply _ none V U n i
theorem dot64_apply (V : FVec Ideal S100000x64 .f32) (U : FVec Ideal S64x64 .f32) (n : Fin 100000) (i : Fin 64) :
    Host.dotGeneral (F := Ideal) dot_S100000x64_S64x64_S100000x64_1_0_0_1_n_n none V U (ix2 n i)
      = ∑ c : Fin 64, V (ix2 n c) * U (ix2 c i) :=
  dot_apply _ none V U n i

/-- A vector of 64 broadcast to a row and then down 100000 rows reads its entry at the column. -/
theorem bias_apply (b : FVec Ideal S64 .f32) (n : Fin 100000) (k : Fin 64) :
    broadcastInDim S100000x64 ![0, 1] bcast_S1x64_S100000x64_0_1 (broadcastInDim S1x64 ![1] bcast_S64_S1x64_1 b) (ix2 n k)
      = b (ix1 k) := by
  refine (broadcastInDim_apply _ _ _ (ix2 n k) (ix2 (0 : Fin 1) k)
    (fun a => match a with | ⟨0, _⟩ => rfl | ⟨1, _⟩ => rfl)).trans ?_
  exact broadcastInDim_apply _ _ _ (ix2 (0 : Fin 1) k) (ix1 k) (fun a => match a with | ⟨0, _⟩ => rfl)

/-- A scalar constant broadcast to any of the shapes reads the constant's value. -/
theorem splat64_apply (w : BitVec 32) (j : S100000x64.Idx) :
    broadcastInDim S100000x64 ![] bcast_S_S100000x64 (constant (F := Ideal) S_ .f32 w) j = Ideal.ofBits .f32 w :=
  broadcastInDim_scalar_apply _ _ j
theorem splat1_apply (x : FVec Ideal S_ .f32) (j : S100000x1.Idx) :
    broadcastInDim S100000x1 ![] bcast_S_S100000x1 x j = x ix0 :=
  broadcastInDim_scalar_apply _ _ j

/-- A vector of 100000 as a unit column. -/
theorem col_apply (v : FVec Ideal S100000 .f32) (n : Fin 100000) (z : Fin 1) :
    broadcastInDim S100000x1 ![0] bcast_S100000_S100000x1_0 v (ix2 n z) = v (ix1 n) :=
  broadcastInDim_apply _ _ _ (ix2 n z) (ix1 n) (fun a => match a with | ⟨0, _⟩ => rfl)

/-- A unit column broadcast along 64 columns. -/
theorem colBcast_apply (v : FVec Ideal S100000x1 .f32) (n : Fin 100000) (c : Fin 64) :
    broadcastInDim S100000x64 ![0, 1] bcast_S100000x1_S100000x64_0_1 v (ix2 n c) = v (ix2 n (0 : Fin 1)) :=
  broadcastInDim_apply _ _ _ (ix2 n c) (ix2 n (0 : Fin 1)) (fun a => match a with | ⟨0, _⟩ => rfl | ⟨1, _⟩ => rfl)

/-- The host's row sum from a zero initial value is the sum of the row's 64 entries. -/
theorem rowSum_apply (H : FVec Ideal S100000x64 .f32) (n : Fin 100000) :
    Host.reduceAdd (F := Ideal) H (constant S_ .f32 0x00000000#32) reducesTo_S100000x64_S100000_d1 h_S_ (ix1 n)
      = ∑ k : Fin 64, H (ix2 n k) := by
  have hR : S100000x64.Reduces [1] S100000 := by decide
  refine (hostReduceAdd_apply H _ _ _ (ix1 n)).trans ?_
  refine (Ideal.hostReduceAdd_single reducesTo_S100000x64_S100000_d1 hR H _ (ix1 n)).trans ?_
  rw [constant_apply, Ideal.ofBits_zero_f32, zero_add]
  refine Finset.sum_congr rfl fun k _ => congrArg H (funext fun ax => Fin.ext ?_)
  match ax with
  | ⟨0, _⟩ => rfl
  | ⟨1, _⟩ => rfl

/-- The two-piece concatenation along the columns, read in its first and in its second half. -/
theorem concat_left (X A : FVec Ideal S100000x64 .f32) (n : Fin 100000) (a : Fin 64) :
    concatenate S100000x128 1 [⟨S100000x64, X⟩, ⟨S100000x64, A⟩] concatenates_S100000x64_S100000x64_S100000x128_d1
      (ix2 n (Fin.castAdd 64 a)) = X (ix2 n a) :=
  concatenate_pair_apply_left _ X A _ (ix2 n (Fin.castAdd 64 a)) rfl (ix2 n a)
    (fun b => match b with | ⟨0, _⟩ => rfl | ⟨1, _⟩ => rfl)

theorem concat_right (X A : FVec Ideal S100000x64 .f32) (n : Fin 100000) (a : Fin 64) :
    concatenate S100000x128 1 [⟨S100000x64, X⟩, ⟨S100000x64, A⟩] concatenates_S100000x64_S100000x64_S100000x128_d1
      (ix2 n (Fin.natAdd 64 a)) = A (ix2 n a) :=
  concatenate_pair_apply_right _ X A _ (ix2 n (Fin.natAdd 64 a)) rfl rfl (ix2 n a)
    (fun b => match b with | ⟨0, _⟩ => fun _ => rfl | ⟨1, _⟩ => fun h => absurd rfl h)
    (by show a.val + 64 = 64 + a.val; omega)

/-- The two row blocks of the 128-row weight matrix. -/
abbrev Ua (U1 : FVec Ideal S128x64 .f32) : Cert.Spec.S64x64.Idx → EReal := Cert.Spec.rowsFrom 64 0 (by decide) U1
abbrev Ub (U1 : FVec Ideal S128x64 .f32) : Cert.Spec.S64x64.Idx → EReal := Cert.Spec.rowsFrom 64 64 (by decide) U1

/-- The update layer's hidden array before the rectifier, and its output array. -/
def hidT (X A : FVec Ideal S100000x64 .f32) (U1 : FVec Ideal S128x64 .f32) (ub1 : FVec Ideal S64 .f32) : FVec Ideal S100000x64 .f32 :=
  addf (Host.dotGeneral dot_S100000x128_S128x64_S100000x64_1_0_0_1_n_n none
      (concatenate S100000x128 1 [⟨S100000x64, X⟩, ⟨S100000x64, A⟩] concatenates_S100000x64_S100000x64_S100000x128_d1) U1)
    (broadcastInDim S100000x64 ![0, 1] bcast_S1x64_S100000x64_0_1 (broadcastInDim S1x64 ![1] bcast_S64_S1x64_1 ub1))

def outT (X A : FVec Ideal S100000x64 .f32) (U1 : FVec Ideal S128x64 .f32) (ub1 : FVec Ideal S64 .f32)
    (U2 : FVec Ideal S64x64 .f32) (ub2 : FVec Ideal S64 .f32) : FVec Ideal S100000x64 .f32 :=
  addf (Host.dotGeneral dot_S100000x64_S64x64_S100000x64_1_0_0_1_n_n none
      (maximumf (hidT X A U1 ub1) (broadcastInDim S100000x64 ![] bcast_S_S100000x64 (constant S_ .f32 0x00000000#32))) U2)
    (broadcastInDim S100000x64 ![0, 1] bcast_S1x64_S100000x64_0_1 (broadcastInDim S1x64 ![1] bcast_S64_S1x64_1 ub2))

theorem hidT_apply (X A : FVec Ideal S100000x64 .f32) (U1 : FVec Ideal S128x64 .f32) (ub1 : FVec Ideal S64 .f32)
    (n : Fin 100000) (i : Fin 64) :
    hidT X A U1 ub1 (ix2 n i) = Cert.Spec.updHid X A (Ua U1) (Ub U1) ub1 n i := by
  unfold hidT Cert.Spec.updHid
  rw [addf_apply, dot128_apply, bias_apply]
  refine congrArg (· + ub1 (ix1 i)) ?_
  refine (Fin.sum_univ_add (a := 64) (b := 64) _).trans ?_
  refine congrArg₂ (· + ·) (Finset.sum_congr rfl fun a _ => ?_) (Finset.sum_congr rfl fun a _ => ?_)
  · rw [concat_left]
    refine congrArg (X (ix2 n a) * ·) ?_
    show U1 _ = U1 _
    refine congrArg U1 (funext fun ax => Fin.ext ?_)
    match ax with
    | ⟨0, _⟩ => show a.val = 0 + a.val; omega
    | ⟨1, _⟩ => rfl
  · rw [concat_right]
    refine congrArg (A (ix2 n a) * ·) ?_
    show U1 _ = U1 _
    refine congrArg U1 (funext fun ax => Fin.ext ?_)
    match ax with
    | ⟨0, _⟩ => rfl
    | ⟨1, _⟩ => rfl

theorem outT_apply (X A : FVec Ideal S100000x64 .f32) (U1 : FVec Ideal S128x64 .f32) (ub1 : FVec Ideal S64 .f32)
    (U2 : FVec Ideal S64x64 .f32) (ub2 : FVec Ideal S64 .f32) (n : Fin 100000) (k : Fin 64) :
    outT X A U1 ub1 U2 ub2 (ix2 n k) = Cert.Spec.updOut X A (Ua U1) (Ub U1) ub1 U2 ub2 n k := by
  unfold outT Cert.Spec.updOut
  rw [addf_apply, dot64_apply, bias_apply]
  refine congrArg (· + ub2 (ix1 k)) (Finset.sum_congr rfl fun i _ => ?_)
  rw [maximumf_apply, splat64_apply, Ideal.ofBits_zero_f32, hidT_apply]

/-- The residual array: the input row plus the output times the logistic function of the output. -/
theorem refRes_apply (X A : FVec Ideal S100000x64 .f32) (U1 : FVec Ideal S128x64 .f32) (ub1 : FVec Ideal S64 .f32)
    (U2 : FVec Ideal S64x64 .f32) (ub2 : FVec Ideal S64 .f32) (n : Fin 100000) (k : Fin 64) :
    Term.refRes (F := Ideal) X A U1 ub1 U2 ub2 (ix2 n k) = Cert.Spec.updRes X A (Ua U1) (Ub U1) ub1 U2 ub2 n k := by
  show X (ix2 n k) + outT X A U1 ub1 U2 ub2 (ix2 n k)
      * Ideal.div (broadcastInDim S100000x64 ![] bcast_S_S100000x64 (constant (F := Ideal) S_ .f32 0x3F800000#32) (ix2 n k))
          (broadcastInDim S100000x64 ![] bcast_S_S100000x64 (constant (F := Ideal) S_ .f32 0x3F800000#32) (ix2 n k)
            + Ideal.exp (-(outT X A U1 ub1 U2 ub2 (ix2 n k)))) = _
  rw [splat64_apply, Ideal.ofBits_one_f32, outT_apply]
  rfl

/-- The row means as a unit column: the row sums divided by the literal 64. -/
def meanT (H : FVec Ideal S100000x64 .f32) : FVec Ideal S100000x1 .f32 :=
  Host.divf (broadcastInDim S100000x1 ![0] bcast_S100000_S100000x1_0
      (Host.reduceAdd H (constant S_ .f32 0x00000000#32) reducesTo_S100000x64_S100000_d1 h_S_))
    (broadcastInDim S100000x1 ![] bcast_S_S100000x1 (constant S_ .f32 0x42800000#32))

theorem meanT_apply (H : FVec Ideal S100000x64 .f32) (n : Fin 100000) (z : Fin 1) :
    meanT H (ix2 n z) = Cert.Spec.mean64 (fun k => H (ix2 n k)) := by
  unfold meanT Cert.Spec.mean64
  rw [hostDivf_apply, col_apply, rowSum_apply, splat1_apply, constant_apply]

/-- The squared deviations of each entry from its row's mean. -/
def sqT (H : FVec Ideal S100000x64 .f32) : FVec Ideal S100000x64 .f32 :=
  mulf (subf H (broadcastInDim S100000x64 ![0, 1] bcast_S100000x1_S100000x64_0_1 (meanT H)))
    (subf H (broadcastInDim S100000x64 ![0, 1] bcast_S100000x1_S100000x64_0_1 (meanT H)))

theorem sqT_apply (H : FVec Ideal S100000x64 .f32) (n : Fin 100000) (k : Fin 64) :
    sqT H (ix2 n k) = (H (ix2 n k) - Cert.Spec.mean64 (fun k => H (ix2 n k)))
      * (H (ix2 n k) - Cert.Spec.mean64 (fun k => H (ix2 n k))) := by
  unfold sqT
  rw [mulf_apply, subf_apply, colBcast_apply, meanT_apply]

/-- The variance's divisor, 64 less the float of the integer zero, and the test that it is positive. -/
def divT : FVec Ideal S_ .f32 := subf (constant S_ .f32 0x42800000#32) (sitofp .f32 (constantI S_ 32 0#32))
def guardT : IVec S_ 1 := cmpf (F := Ideal) .ogt divT (constant S_ .f32 0x00000000#32)

theorem c64_eq : Cert.Spec.c64 = ((64 : ℝ) : EReal) := by simp [Ideal.ofBits, Ideal.ieee, -EReal.coe_mul]; norm_num

theorem divT_apply (i : S_.Idx) : divT i = Cert.Spec.c64 := by
  show Ideal.ofBits .f32 0x42800000#32 - (((0#32 : BitVec 32).toInt : ℝ) : EReal) = _
  have h0 : (((0#32 : BitVec 32).toInt : ℝ) : EReal) = 0 := by norm_num
  rw [h0, sub_zero]

theorem guardT_apply (i : S_.Idx) : guardT i = 1#1 := by
  show Ideal.cmp .ogt (divT i) (Ideal.ofBits .f32 0x00000000#32) = 1#1
  rw [divT_apply, Ideal.ofBits_zero_f32, c64_eq]
  have h : (0 : EReal) < ((64 : ℝ) : EReal) := by exact_mod_cast (by norm_num : (0 : ℝ) < 64)
  show BitVec.ofBool (decide ((0 : EReal) < ((64 : ℝ) : EReal))) = 1#1; rw [decide_eq_true h]; rfl

theorem refVar_eq (H : FVec Ideal S100000x64 .f32) :
    Term.refVar (F := Ideal) H
      = select (broadcastInDim S100000x1 ![] bcast_S_S100000x1 guardT)
          (Host.divf (broadcastInDim S100000x1 ![0] bcast_S100000_S100000x1_0
              (Host.reduceAdd (sqT H) (constant S_ .f32 0x00000000#32) reducesTo_S100000x64_S100000_d1 h_S_))
            (broadcastInDim S100000x1 ![] bcast_S_S100000x1 divT))
          (broadcastInDim S100000x1 ![] bcast_S_S100000x1 (id (constant S_ .f32 0x7FC00000#32))) := rfl

/-- The variance column: the mean of the squared deviations. -/
theorem refVar_apply (H : FVec Ideal S100000x64 .f32) (n : Fin 100000) (z : Fin 1) :
    Term.refVar (F := Ideal) H (ix2 n z)
      = Cert.Spec.mean64 (fun k => (H (ix2 n k) - Cert.Spec.mean64 (fun k => H (ix2 n k)))
          * (H (ix2 n k) - Cert.Spec.mean64 (fun k => H (ix2 n k)))) := by
  rw [refVar_eq, select_apply, broadcastInDim_scalar_apply, guardT_apply, select_one, hostDivf_apply, col_apply, rowSum_apply,
    splat1_apply, divT_apply]
  simp only [sqT_apply]
  rfl

/-- The normalised array at an index. -/
theorem refNorm_apply (H : FVec Ideal S100000x64 .f32) (g bt : FVec Ideal S64 .f32) (n : Fin 100000) (c : Fin 64) :
    Term.refNorm (F := Ideal) H g bt (ix2 n c) = Cert.Spec.normRow (fun k => H (ix2 n k)) g bt c := by
  show ((H (ix2 n c) - broadcastInDim S100000x64 ![0, 1] bcast_S100000x1_S100000x64_0_1 (meanT H) (ix2 n c))
        * broadcastInDim S100000x64 ![0, 1] bcast_S100000x1_S100000x64_0_1
            (Host.rsqrt (addf (Term.refVar H)
              (broadcastInDim S100000x1 ![] bcast_S_S100000x1 (constant S_ .f32 0x3727C5AC#32)))) (ix2 n c))
      * broadcastInDim S100000x64 ![0, 1] bcast_S1x64_S100000x64_0_1 (broadcastInDim S1x64 ![1] bcast_S64_S1x64_1 g) (ix2 n c)
      + broadcastInDim S100000x64 ![0, 1] bcast_S1x64_S100000x64_0_1 (broadcastInDim S1x64 ![1] bcast_S64_S1x64_1 bt) (ix2 n c) = _
  rw [colBcast_apply, colBcast_apply, bias_apply, bias_apply, meanT_apply]
  show ((H (ix2 n c) - _) * Ideal.rsqrt (Term.refVar H (ix2 n (0 : Fin 1))
      + broadcastInDim S100000x1 ![] bcast_S_S100000x1 (constant (F := Ideal) S_ .f32 0x3727C5AC#32) (ix2 n (0 : Fin 1))))
    * g (ix1 c) + bt (ix1 c) = _
  rw [splat1_apply, refVar_apply]
  rfl

theorem refUpd_eq (X A : FVec Ideal S100000x64 .f32) (U1 : FVec Ideal S128x64 .f32) (ub1 : FVec Ideal S64 .f32)
    (U2 : FVec Ideal S64x64 .f32) (ub2 g bt : FVec Ideal S64 .f32) :
    Term.refNorm (F := Ideal) (Term.refRes X A U1 ub1 U2 ub2) g bt
      = Cert.Spec.updK X A (Cert.Spec.rowsFrom 64 0 (by decide) U1) (Cert.Spec.rowsFrom 64 64 (by decide) U1) ub1 U2 ub2 g bt := by
  funext j
  obtain ⟨n, c, rfl⟩ : ∃ (n : Fin 100000) (c : Fin 64), j = ix2 n c := ⟨j 0, j 1, eq_ix2 j⟩
  rw [refNorm_apply]
  simp only [refRes_apply]
  rfl

end Cert.ReferenceIdeal.UpdValue

end
-- ==== Proof.TakeFacts.lean ====
/-
  What the precondition says about the edge endpoints, and what it gives the kernel's guarded gather: every endpoint lies
  in `[0, 100000)`, so no index is shifted, every range test passes, and `jnp.take`'s select keeps the gathered rows.
  Also: the kernel's row blocks of the two first-layer weight matrices read at an index.
-/
import proofs.«410363_j75831942578740_1_alg».proof.Defs
import proofs.«410363_j75831942578740_1_alg».proof.Proof.Gen.KernelIdeal
import proofs.«410363_j75831942578740_1_alg».proof.Proof.Gen.Pre_finite_inputs
import proofs.«410363_j75831942578740_1_alg».proof.Proof.KernelTerm
import proofs.«410363_j75831942578740_1_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.Proof.TakeFacts

open Cert.KernelIdeal Cert.KernelIdeal.Gen Idealize.ShloMosaic Idealize.ShloMosaic.TcCoe Idealize.ShloMosaic.ValueIdx Idealize.SL.Sem

/-! ## Words -/

theorem toInt_zero32 : (0#32 : BitVec 32).toInt = 0 := by decide
theorem toInt_n32 : (100000#32 : BitVec 32).toInt = 100000 := by decide
theorem toInt_n1_32 : (99999#32 : BitVec 32).toInt = 99999 := by decide

/-- A left fold by `and` from 1 over 1s is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- A reduce by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ (fun n _ => hx n)

instance : Subsingleton (⟨0, ![]⟩ : Shape).Idx := ⟨fun a b => funext fun d => d.elim0⟩

/-! ## The precondition's last conjunct -/

/-- The last part of the printed predicate being 1 says every endpoint is in `[0, 100000)`. -/
theorem part3_last {F : FTy → Type} [FloatOps F] (a1 : IVec Cert.Pre_finite_inputs.S2x1600000 32)
    (a12 : FVec F Cert.Pre_finite_inputs.S64 .f32) (v48 : IVec Cert.Pre_finite_inputs.S_ 1)
    (v49 v50 : FVec F Cert.Pre_finite_inputs.S64 .f32)
    (e : Cert.Pre_finite_inputs.fn_part3 (F := F) a1 a12 v48 v49 v50 ix0 = 1#1) (j : Cert.Pre_finite_inputs.S2x1600000.Idx) :
    0 ≤ (a1 j).toInt ∧ (a1 j).toInt < 100000 := by
  unfold Cert.Pre_finite_inputs.fn_part3 at e
  have e2 := (IntOp.andi_eq_one.1 e).2
  have e3 := Host.reduce_andi_all _ _ _ _ _ e2 j
  obtain ⟨h0, h1⟩ := IntOp.andi_eq_one.1 e3
  have g0 := IntOp.cmpi_sge.1 h0
  have g1 := IntOp.cmpi_slt.1 h1
  exact ⟨toInt_zero32 ▸ g0, toInt_n32 ▸ g1⟩

/-- The precondition's last conjunct, decoded: every entry of the endpoint array is a node index. -/
theorem idx_range (m : (ℓ : Loc nD τ sig) → Buf (Elt Ideal) ℓ) (h : Cert.Pre_KernelIdeal m) (c : Dev nD) (j : S2x1600000.Idx) :
    0 ≤ ((m ((c.tc : Thread nD τ).loc main_arg1) : IVec S2x1600000 32) j).toInt
      ∧ ((m ((c.tc : Thread nD τ).loc main_arg1) : IVec S2x1600000 32) j).toInt < 100000 := by
  have e := congrFun (h c) ix0
  exact part3_last (F := Ideal) _ _ _ _ _ e j

/-! ## The two rows of endpoints -/

theorem srcRow_apply (EI : IVec S2x1600000 32) (e : Fin 1600000) : Term.srcRow EI (ix1 e) = EI (ix2 (0 : Fin 2) e) :=
  (shapeCast_1a_a_apply _ _ e).trans (slice2_axis0_apply 0 EI _ (0 : Fin 1) e (0 : Fin 2) rfl)

theorem dstRow_apply (EI : IVec S2x1600000 32) (e : Fin 1600000) : Term.dstRow EI (ix1 e) = EI (ix2 (1 : Fin 2) e) :=
  (shapeCast_1a_a_apply _ _ e).trans (slice2_axis0_apply 1 EI _ (0 : Fin 1) e (1 : Fin 2) rfl)

theorem srcRow_range (EI : IVec S2x1600000 32) (h : ∀ j, 0 ≤ (EI j).toInt ∧ (EI j).toInt < 100000) (e : S1600000.Idx) :
    0 ≤ (Term.srcRow EI e).toInt ∧ (Term.srcRow EI e).toInt < 100000 := by
  obtain ⟨p, rfl⟩ : ∃ p : Fin 1600000, e = ix1 p := ⟨e 0, eq_ix1 e⟩
  rw [srcRow_apply]; exact h _

theorem dstRow_range (EI : IVec S2x1600000 32) (h : ∀ j, 0 ≤ (EI j).toInt ∧ (EI j).toInt < 100000) (e : S1600000.Idx) :
    0 ≤ (Term.dstRow EI e).toInt ∧ (Term.dstRow EI e).toInt < 100000 := by
  obtain ⟨p, rfl⟩ : ∃ p : Fin 1600000, e = ix1 p := ⟨e 0, eq_ix1 e⟩
  rw [dstRow_apply]; exact h _

/-! ## The guarded gather -/

/-- A nonnegative index is not shifted. -/
theorem shift_apply (row : IVec S1600000 32) (hrow : ∀ e, 0 ≤ (row e).toInt ∧ (row e).toInt < 100000) (e : S1600000.Idx) :
    select (cmpi .slt row (broadcastInDim S1600000 ![] bcast_S_S1600000 (constantI S_ 32 0#32)))
      (addi row (broadcastInDim S1600000 ![] bcast_S_S1600000 (constantI S_ 32 100000#32))) row e = row e := by
  rw [select_apply]
  have hc : cmpi .slt row (broadcastInDim S1600000 ![] bcast_S_S1600000 (constantI S_ 32 0#32)) e = 0#1 := by
    refine eq_zero_of_ne_one fun h1 => ?_
    have h2 : (row e).toInt < (0#32 : BitVec 32).toInt := IntOp.cmpi_slt.1 h1
    rw [toInt_zero32] at h2
    exact absurd (hrow e).1 (not_le.2 h2)
  rw [hc, select_zero]

/-- Every gather index is an entry of the row. -/
theorem idxOf_apply (row : IVec S1600000 32) (hrow : ∀ e, 0 ≤ (row e).toInt ∧ (row e).toInt < 100000) (i : S1600000x1.Idx) :
    ∃ e, Term.idxOf row i = row e := by
  unfold Term.idxOf broadcastInDim
  exact ⟨_, shift_apply row hrow _⟩

/-- Every range test passes. -/
theorem inRange_one (row : IVec S1600000 32) (hrow : ∀ e, 0 ≤ (row e).toInt ∧ (row e).toInt < 100000) (e : S1600000.Idx) :
    Term.inRange (Term.idxOf row) e = 1#1 := by
  unfold Term.inRange
  refine reduce_andi_ones _ _ _ _ rfl (fun i => ?_) e
  obtain ⟨e', he'⟩ := idxOf_apply row hrow i
  refine IntOp.andi_eq_one.2 ⟨?_, ?_⟩
  · refine IntOp.cmpi_sge.2 ?_
    show (0#32 : BitVec 32).toInt ≤ (Term.idxOf row i).toInt
    rw [he', toInt_zero32]; exact (hrow e').1
  · refine IntOp.cmpi_sle.2 ?_
    show (Term.idxOf row i).toInt ≤ (99999#32 : BitVec 32).toInt
    rw [he', toInt_n1_32]; have := (hrow e').2; omega

/-- With every index in range, the guarded gather is the plain gather. -/
theorem takeOf_eq (X : FVec Ideal S100000x64 .f32) (row : IVec S1600000 32)
    (hrow : ∀ e, 0 ≤ (row e).toInt ∧ (row e).toInt < 100000) :
    Term.takeOf (F := Ideal) X row
      = Host.gather gather_S100000x64_S1600000x1_S1600000x64_1_0_n_n_0_1_164 X (Term.idxOf row) := by
  funext j
  unfold Term.takeOf
  rw [select_apply]
  have hc : broadcastInDim S1600000x64 ![0] bcast_S1600000_S1600000x64_0 (Term.inRange (Term.idxOf row)) j = 1#1 :=
    inRange_one row hrow _
  rw [hc, select_one]

/-! ## Row blocks -/

/-- A block of rows cut from a matrix of 64 columns, read index by index. -/
theorem rows_eq {a b : Nat} (o : Nat) (h : o + b ≤ a) (W : (⟨2, ![a, 64]⟩ : Shape).Idx → EReal)
    (hs : (⟨2, ![a, 64]⟩ : Shape).Slices ![o, 0] ⟨2, ![b, 64]⟩) :
    extractStridedSlice ⟨2, ![b, 64]⟩ ![o, 0] W hs = Cert.Spec.rowsFrom b o h W := by
  funext j
  obtain ⟨p, q, rfl⟩ : ∃ (p : Fin b) (q : Fin 64), j = ix2 p q := ⟨j 0, j 1, eq_ix2 j⟩
  exact slice2_axis0_apply o W hs p q _ rfl

/-- The kernel's row blocks of the first-layer weight matrices are rows `0…63`, `64…127`, `128…159` (and `0…63`, `64…127`). -/
theorem w1s_eq (W1 : FVec Ideal S160x64 .f32) : Term.w1s W1 = Cert.Spec.rowsFrom 64 0 (by decide) W1 := rows_eq 0 _ W1 _
theorem w1d_eq (W1 : FVec Ideal S160x64 .f32) : Term.w1d W1 = Cert.Spec.rowsFrom 64 64 (by decide) W1 := rows_eq 64 _ W1 _
theorem w1e_eq (W1 : FVec Ideal S160x64 .f32) : Term.w1e W1 = Cert.Spec.rowsFrom 32 128 (by decide) W1 := rows_eq 128 _ W1 _
theorem u1a_eq (U1 : FVec Ideal S128x64 .f32) : Term.u1a U1 = Cert.Spec.rowsFrom 64 0 (by decide) U1 := rows_eq 0 _ U1 _
theorem u1b_eq (U1 : FVec Ideal S128x64 .f32) : Term.u1b U1 = Cert.Spec.rowsFrom 64 64 (by decide) U1 := rows_eq 64 _ U1 _

end Cert.Proof.TakeFacts

end
-- ==== Proof.Bridge.lean ====
/-
  The two programs' results are one function of the arguments when every edge endpoint is a node index: the reference's
  operations read as the index-by-index message and update functions; the kernel's guarded gathers are then the plain
  gathers and its row blocks of the weight matrices the rows themselves; the gather and the scatter-add are the same
  operations on both sides.
-/
import proofs.«410363_j75831942578740_1_alg».proof.Proof.RefTerm
import proofs.«410363_j75831942578740_1_alg».proof.Proof.KernelTerm
import proofs.«410363_j75831942578740_1_alg».proof.Proof.RefMsgValue
import proofs.«410363_j75831942578740_1_alg».proof.Proof.RefUpdValue
import proofs.«410363_j75831942578740_1_alg».proof.Proof.TakeFacts
import proofs.«410363_j75831942578740_1_alg».proof.Proof.Spec

noncomputable section

namespace Cert.Proof.Bridge

open Idealize.ShloMosaic

/-- The kernel side's closed form of the result. -/
def kernelOut (X : FVec Ideal Cert.KernelIdeal.S100000x64 .f32) (EI : IVec Cert.KernelIdeal.S2x1600000 32) (EA : FVec Ideal Cert.KernelIdeal.S1600000x32 .f32)
    (W1 : FVec Ideal Cert.KernelIdeal.S160x64 .f32) (b1 : FVec Ideal Cert.KernelIdeal.S64 .f32) (W2 : FVec Ideal Cert.KernelIdeal.S64x64 .f32) (b2 : FVec Ideal Cert.KernelIdeal.S64 .f32)
    (U1 : FVec Ideal Cert.KernelIdeal.S128x64 .f32) (ub1 : FVec Ideal Cert.KernelIdeal.S64 .f32) (U2 : FVec Ideal Cert.KernelIdeal.S64x64 .f32)
    (ub2 g bt : FVec Ideal Cert.KernelIdeal.S64 .f32) : FVec Ideal Cert.KernelIdeal.S100000x64 .f32 :=
  Cert.Spec.updK X
    (Cert.KernelIdeal.Term.aggOf (F := Ideal) EI
      (Cert.Spec.msgK (Cert.KernelIdeal.Term.takeOf (F := Ideal) X (Cert.KernelIdeal.Term.srcRow EI)) (Cert.KernelIdeal.Term.takeOf (F := Ideal) X (Cert.KernelIdeal.Term.dstRow EI)) EA
        (Cert.KernelIdeal.Term.w1s (F := Ideal) W1) (Cert.KernelIdeal.Term.w1d (F := Ideal) W1) (Cert.KernelIdeal.Term.w1e (F := Ideal) W1) b1 W2 b2))
    (Cert.KernelIdeal.Term.u1a (F := Ideal) U1) (Cert.KernelIdeal.Term.u1b (F := Ideal) U1) ub1 U2 ub2 g bt

/-- With every endpoint a node index, the reference's result is the kernel side's closed form. -/
theorem refOut_eq (X : FVec Ideal Cert.KernelIdeal.S100000x64 .f32) (EI : IVec Cert.KernelIdeal.S2x1600000 32) (EA : FVec Ideal Cert.KernelIdeal.S1600000x32 .f32)
    (W1 : FVec Ideal Cert.KernelIdeal.S160x64 .f32) (b1 : FVec Ideal Cert.KernelIdeal.S64 .f32) (W2 : FVec Ideal Cert.KernelIdeal.S64x64 .f32) (b2 : FVec Ideal Cert.KernelIdeal.S64 .f32)
    (U1 : FVec Ideal Cert.KernelIdeal.S128x64 .f32) (ub1 : FVec Ideal Cert.KernelIdeal.S64 .f32) (U2 : FVec Ideal Cert.KernelIdeal.S64x64 .f32)
    (ub2 g bt : FVec Ideal Cert.KernelIdeal.S64 .f32) (hEI : ∀ j, 0 ≤ (EI j).toInt ∧ (EI j).toInt < 100000) :
    Cert.ReferenceIdeal.Term.refOut (F := Ideal) X EI EA W1 b1 W2 b2 U1 ub1 U2 ub2 g bt
      = kernelOut X EI EA W1 b1 W2 b2 U1 ub1 U2 ub2 g bt := by
  unfold kernelOut Cert.ReferenceIdeal.Term.refOut
  rw [Cert.ReferenceIdeal.UpdValue.refUpd_eq]
  rw [Cert.Proof.TakeFacts.takeOf_eq X _ (Cert.Proof.TakeFacts.srcRow_range EI hEI),
    Cert.Proof.TakeFacts.takeOf_eq X _ (Cert.Proof.TakeFacts.dstRow_range EI hEI),
    Cert.Proof.TakeFacts.w1s_eq, Cert.Proof.TakeFacts.w1d_eq, Cert.Proof.TakeFacts.w1e_eq,
    Cert.Proof.TakeFacts.u1a_eq, Cert.Proof.TakeFacts.u1b_eq]
  unfold Cert.ReferenceIdeal.Term.refAgg
  rw [Cert.ReferenceIdeal.MsgValue.refMsg_eq]
  rfl

end Cert.Proof.Bridge

end
-- ==== Proof.lean ====
/-
  The certificate's five claims for the edge-message layer. The three frames: the two kernel programs' are the generated
  frame certificates; the reference's is its run with the result dropped. No rewrite was applied by the ideal pass, so
  there is nothing to preserve. The value claim: under the precondition every edge endpoint is a node index; the kernel
  program ends with the node update of the scatter-added edge messages (two grids of row blocks read as whole arrays), the
  reference ends with the same function of the same arguments — the concatenated inputs' products split by row blocks of
  the weight matrices, jax's logistic and variance spelled out, and `jnp.take`'s guard never firing.
-/
import proofs.«410363_j75831942578740_1_alg».proof.Defs
import proofs.«410363_j75831942578740_1_alg».proof.Proof.Gen.Kernel
import proofs.«410363_j75831942578740_1_alg».proof.Proof.Gen.Kernel.Frame
import proofs.«410363_j75831942578740_1_alg».proof.Proof.Gen.KernelIdeal
import proofs.«410363_j75831942578740_1_alg».proof.Proof.Gen.KernelIdeal.Frame
import proofs.«410363_j75831942578740_1_alg».proof.Proof.Gen.ReferenceIdeal
import proofs.«410363_j75831942578740_1_alg».proof.Proof.Gen.Pre_finite_inputs
import proofs.«410363_j75831942578740_1_alg».proof.Proof.KernelRun
import proofs.«410363_j75831942578740_1_alg».proof.Proof.KernelValue
import proofs.«410363_j75831942578740_1_alg».proof.Proof.RefRun
import proofs.«410363_j75831942578740_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Both programs end at `Bridge.kernelOut` of the (agreeing) arguments. -/
theorem algebraic : Cert.algebraic_KernelIdeal_ReferenceIdeal := by
  intro m ρ m' ρ' hpre hagree
  refine ⟨fun c => Cert.Proof.Bridge.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KValue.result_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Run.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]
    exact Cert.Proof.Bridge.refOut_eq _ _ _ _ _ _ _ _ _ _ _ _ _ (Cert.Proof.TakeFacts.idx_range m hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
